-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x2x64 : Shape := ⟨3, ![100000, 2, 64]⟩
abbrev S2x1600000 : Shape := ⟨2, ![2, 1600000]⟩
abbrev S64x128 : Shape := ⟨2, ![64, 128]⟩
abbrev S64 : Shape := ⟨1, ![64]⟩
abbrev S64x64 : Shape := ⟨2, ![64, 64]⟩
abbrev S16x64 : Shape := ⟨2, ![16, 64]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x2x64 : S_.BroadcastsInDim S100000x2x64 (![] : Fin 0 → Fin S100000x2x64.rank)
  reducesTo_S100000x2x64_S_d0_1_2 : S100000x2x64.ReducesTo [0, 1, 2] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_arg12 : FVec F S16 .f32) (main_v48 : IVec S_ 1) (main_v49 : FVec F S16x64 .f32) (main_v50 : FVec F S16x64 .f32) : IVec S_ 1 :=
  let main_v51 : IVec S16x64 1 := cmpf .olt main_v49 main_v50
  let main_c_19 : IVec S_ 1 := constantI S_ 1 1#1
  let main_v52 : IVec S_ 1 := (fun x v => Host.reduce IntOp.andi x v reducesTo_S16x64_S_d0_1 h_S_) main_v51 main_c_19
  let main_v53 : IVec S_ 1 := andi main_v48 main_v52
  let main_v54 : FVec F S16 .f32 := Host.absf main_arg12
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  main_v58

def fn_part2 {F : FTy → Type} [FloatOps F] (main_arg8 : FVec F S16x64 .f32) (main_arg9 : FVec F S16 .f32) (main_arg10 : FVec F S16x64 .f32) (main_arg11 : FVec F S16x64 .f32) (main_arg12 : FVec F S16 .f32) (main_v33 : IVec S_ 1) : IVec S_ 1 :=
  let main_v34 : FVec F S16x64 .f32 := Host.absf main_arg8
  let main_cst_12 : FVec F S_ .f32 := constant S_ .f32 0x7F800000#32
  let main_v35 : FVec F S16x64 .f32 := broadcastInDim S16x64 ![] bcast_S_S16x64 main_cst_12
  let main_v36 : IVec S16x64 1 := cmpf .olt main_v34 main_v35
  let main_c_13 : IVec S_ 1 := constantI S_ 1 1#1
  let main_v37 : IVec S_ 1 := (fun x v => Host.reduce IntOp.andi x v reducesTo_S16x64_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x64 .f32 := Host.absf main_arg10
  let main_cst_16 : FVec F S_ .f32 := constant S_ .f32 0x7F800000#32
  let main_v45 : FVec F S16x64 .f32 := broadcastInDim S16x64 ![] bcast_S_S16x64 main_cst_16
  let main_v46 : IVec S16x64 1 := cmpf .olt main_v44 main_v45
  let main_c_17 : IVec S_ 1 := constantI S_ 1 1#1
  let main_v47 : IVec S_ 1 := (fun x v => Host.reduce IntOp.andi x v reducesTo_S16x64_S_d0_1 h_S_) main_v46 main_c_17
  let main_v48 : IVec S_ 1 := andi main_v43 main_v47
  let main_v49 : FVec F S16x64 .f32 := Host.absf main_arg11
  let main_cst_18 : FVec F S_ .f32 := constant S_ .f32 0x7F800000#32
  let main_v50 : FVec F S16x64 .f32 := broadcastInDim S16x64 ![] bcast_S_S16x64 main_cst_18
  fn_part3 (F := F) main_arg12 main_v48 main_v49 main_v50

def fn_part1 {F : FTy → Type} [FloatOps F] (main_arg5 : FVec F S64x128 .f32) (main_arg6 : FVec F S64x64 .f32) (main_arg7 : FVec F S64 .f32) (main_arg8 : FVec F S16x64 .f32) (main_arg9 : FVec F S16 .f32) (main_arg10 : FVec F S16x64 .f32) (main_arg11 : FVec F S16x64 .f32) (main_arg12 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x128 .f32) (main_arg1 : FVec F S100000x2x64 .f32) (main_arg2 : IVec S2x1600000 32) (main_arg3 : FVec F S64x128 .f32) (main_arg4 : FVec F S64 .f32) (main_arg5 : FVec F S64x128 .f32) (main_arg6 : FVec F S64x64 .f32) (main_arg7 : FVec F S64 .f32) (main_arg8 : FVec F S16x64 .f32) (main_arg9 : FVec F S16 .f32) (main_arg10 : FVec F S16x64 .f32) (main_arg11 : FVec F S16x64 .f32) (main_arg12 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x2x64 .f32 := Host.absf main_arg1
  let main_cst_0 : FVec F S_ .f32 := constant S_ .f32 0x7F800000#32
  let main_v5 : FVec F S100000x2x64 .f32 := broadcastInDim S100000x2x64 ![] bcast_S_S100000x2x64 main_cst_0
  let main_v6 : IVec S100000x2x64 1 := cmpf .olt main_v4 main_v5
  let main_c_1 : IVec S_ 1 := constantI S_ 1 1#1
  let main_v7 : IVec S_ 1 := (fun x v => Host.reduce IntOp.andi x v reducesTo_S100000x2x64_S_d0_1_2 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_v13 main_v16
-- ==== Kernel.lean ====
abbrev S100000x128 : Shape := ⟨2, ![100000, 128]⟩
abbrev S100000x2x64 : Shape := ⟨3, ![100000, 2, 64]⟩
abbrev S2x1600000 : Shape := ⟨2, ![2, 1600000]⟩
abbrev S64x128 : Shape := ⟨2, ![64, 128]⟩
abbrev S64 : Shape := ⟨1, ![64]⟩
abbrev S64x64 : Shape := ⟨2, ![64, 64]⟩
abbrev S16x64 : Shape := ⟨2, ![16, 64]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x1x64 : Shape := ⟨3, ![100000, 1, 64]⟩
abbrev S100000x64 : Shape := ⟨2, ![100000, 64]⟩
abbrev S128x64 : Shape := ⟨2, ![128, 64]⟩
abbrev S2000x128 : Shape := ⟨2, ![2000, 128]⟩
abbrev S2000x64 : Shape := ⟨2, ![2000, 64]⟩
abbrev S1x64 : Shape := ⟨2, ![1, 64]⟩
abbrev S1600000x64 : Shape := ⟨2, ![1600000, 64]⟩
abbrev S64x16 : Shape := ⟨2, ![64, 16]⟩
abbrev S100000x16 : Shape := ⟨2, ![100000, 16]⟩
abbrev S2000x16 : Shape := ⟨2, ![2000, 16]⟩
abbrev S1x16 : Shape := ⟨2, ![1, 16]⟩

abbrev nBuf : Space → Nat
  | .hbm => 84
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S100000x2x64, .f32⟩
  | .hbm, ⟨2, _⟩ => ⟨S2x1600000, .i32⟩
  | .hbm, ⟨3, _⟩ => ⟨S64x128, .f32⟩
  | .hbm, ⟨4, _⟩ => ⟨S64, .f32⟩
  | .hbm, ⟨5, _⟩ => ⟨S64x128, .f32⟩
  | .hbm, ⟨6, _⟩ => ⟨S64x64, .f32⟩
  | .hbm, ⟨7, _⟩ => ⟨S64, .f32⟩
  | .hbm, ⟨8, _⟩ => ⟨S16x64, .f32⟩
  | .hbm, ⟨9, _⟩ => ⟨S16, .f32⟩
  | .hbm, ⟨10, _⟩ => ⟨S16x64, .f32⟩
  | .hbm, ⟨11, _⟩ => ⟨S16x64, .f32⟩
  | .hbm, ⟨12, _⟩ => ⟨S16, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S_, .f32⟩
  | .hbm, ⟨31, _⟩ => ⟨S1600000, .f32⟩
  | .hbm, ⟨32, _⟩ => ⟨S_, .f32⟩
  | .hbm, ⟨33, _⟩ => ⟨S100000, .f32⟩
  | .hbm, ⟨34, _⟩ => ⟨S1600000x1, .i32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S100000x1x64, .f32⟩
  | .hbm, ⟨43, _⟩ => ⟨S100000x64, .f32⟩
  | .hbm, ⟨44, _⟩ => ⟨S100000x1x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S128x64, .f32⟩
  | .hbm, ⟨51, _⟩ => ⟨S128x64, .f32⟩
  | .hbm, ⟨52, _⟩ => ⟨S64x64, .f32⟩
  | .hbm, ⟨53, _⟩ => ⟨S100000x64, .f32⟩
  | .hbm, ⟨54, _⟩ => ⟨S100000x64, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x64, .f32⟩
  | .hbm, ⟨64, _⟩ => ⟨S_, .f32⟩
  | .hbm, ⟨65, _⟩ => ⟨S100000x64, .f32⟩
  | .hbm, ⟨66, _⟩ => ⟨S1600000x1, .i32⟩
  | .hbm, ⟨67, _⟩ => ⟨S100000x64, .f32⟩
  | .hbm, ⟨68, _⟩ => ⟨S_, .f32⟩
  | .hbm, ⟨69, _⟩ => ⟨S1600000, .f32⟩
  | .hbm, ⟨70, _⟩ => ⟨S_, .f32⟩
  | .hbm, ⟨71, _⟩ => ⟨S100000, .f32⟩
  | .hbm, ⟨72, _⟩ => ⟨S1600000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000x1, .f32⟩
  | .hbm, ⟨78, _⟩ => ⟨S100000x64, .f32⟩
  | .hbm, ⟨79, _⟩ => ⟨S100000x64, .f32⟩
  | .hbm, ⟨80, _⟩ => ⟨S64x16, .f32⟩
  | .hbm, ⟨81, _⟩ => ⟨S64x16, .f32⟩
  | .hbm, ⟨82, _⟩ => ⟨S64x16, .f32⟩
  | .hbm, ⟨83, _⟩ => ⟨S100000x16, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x64, .f32⟩
  | .local _ .vmem, ⟨5, _⟩ => ⟨S2000x64, .f32⟩
  | .local _ .vmem, ⟨6, _⟩ => ⟨S128x64, .f32⟩
  | .local _ .vmem, ⟨7, _⟩ => ⟨S64, .f32⟩
  | .local _ .vmem, ⟨8, _⟩ => ⟨S128x64, .f32⟩
  | .local _ .vmem, ⟨9, _⟩ => ⟨S64x64, .f32⟩
  | .local _ .vmem, ⟨10, _⟩ => ⟨S64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S64x16, .f32⟩
  | .local _ .vmem, ⟨22, _⟩ => ⟨S16, .f32⟩
  | .local _ .vmem, ⟨23, _⟩ => ⟨S64x16, .f32⟩
  | .local _ .vmem, ⟨24, _⟩ => ⟨S64x16, .f32⟩
  | .local _ .vmem, ⟨25, _⟩ => ⟨S16, .f32⟩
  | .local _ .vmem, ⟨26, _⟩ => ⟨S2000x16, .f32⟩
  | .local _ .vmem, ⟨27, _⟩ => ⟨S2000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33_0 : Ref sig .tc := ⟨.hbm, 53, rfl⟩
abbrev main_v33_1 : Ref sig .tc := ⟨.hbm, 54, rfl⟩
abbrev main_c_5 : Ref sig .tc := ⟨.hbm, 55, rfl⟩
abbrev main_v34 : Ref sig .tc := ⟨.hbm, 56, rfl⟩
abbrev main_v35 : Ref sig .tc := ⟨.hbm, 57, rfl⟩
abbrev main_c_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x16 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S100000x2x64_S100000x1x64_0_0_0 : S100000x2x64.Slices ![0, 0, 0] S100000x1x64
  shapeCasts_S100000x1x64_S100000x64 : S100000x1x64.ShapeCasts S100000x64
  slices_S100000x2x64_S100000x1x64_0_1_0 : S100000x2x64.Slices ![0, 1, 0] S100000x1x64
  bcast_S_S100000x64 : S_.BroadcastsInDim S100000x64 (![] : Fin 0 → Fin S100000x64.rank)
  transposes_S64x128_S128x64_1_0 : S64x128.Transposes [1, 0] S128x64
  transposes_S64x64_S64x64_1_0 : S64x64.Transposes [1, 0] S64x64
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  bcast_S100000x1_S100000x64_0_1 : S100000x1.BroadcastsInDim S100000x64 (![0, 1] : Fin 2 → Fin S100000x64.rank)
  transposes_S16x64_S64x16_1_0 : S16x64.Transposes [1, 0] S64x16
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S16_S16_0 : ∀ a, (![0] : Fin 1 → Nat) a + S16.size a ≤ S16.size a
  h_S16 : 0 < S16.numel
  shapeCasts_S16_S1x16 : S16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S2000x128_S128x64_S2000x64_1_0_0_1_n_n_wf : DotDims.WF S2000x128 S128x64 S2000x64 [1] [0] [0] [1] [] []
  dot_S2000x64_S64x64_S2000x64_1_0_0_1_n_n_wf : DotDims.WF S2000x64 S64x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x16_S2000x16_1_0_0_1_n_n_wf : DotDims.WF S2000x64 S64x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x64.size a ≤ S100000x64.size a
  hwx0_8 : ∀ i : grid0.Coords, EltTy.bits .f32 = 32 ∨ (Rect.block (s := S100000x64) S2000x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x64.size a ≤ S100000x64.size a
  hwx0_9 : ∀ i : grid0.Coords, EltTy.bits .f32 = 32 ∨ (Rect.block (s := S100000x64) S2000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x16.size a ≤ S64x16.size a
  hwx1_3 : ∀ i : grid1.Coords, EltTy.bits .f32 = 32 ∨ (Rect.block (s := S64x16) S64x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16.size a ≤ S16.size a
  hwx1_4 : ∀ i : grid1.Coords, EltTy.bits .f32 = 32 ∨ (Rect.block (s := S16) S16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x16.size a ≤ S64x16.size a
  hwx1_5 : ∀ i : grid1.Coords, EltTy.bits .f32 = 32 ∨ (Rect.block (s := S64x16) S64x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x16.size a ≤ S64x16.size a
  hwx1_6 : ∀ i : grid1.Coords, EltTy.bits .f32 = 32 ∨ (Rect.block (s := S64x16) S64x16.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S16.size a ≤ S16.size a
  hwx1_7 : ∀ i : grid1.Coords, EltTy.bits .f32 = 32 ∨ (Rect.block (s := S16) S16.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x16.size a ≤ S100000x16.size a
  hwx1_8 : ∀ i : grid1.Coords, EltTy.bits .f32 = 32 ∨ (Rect.block (s := S100000x16) S2000x16.size (cc1_transform_8 i) (hinb1_8 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x16_S2000x16_1_0_0_1_n_n : DotDims S2000x64 S64x16 S2000x16 where
  lhsContracting := [1]
  rhsContracting := [0]
  lhsNonContracting := [0]
  rhsNonContracting := [1]
  lhsBatch := []
  rhsBatch := []
  wf := dot_S2000x64_S64x16_S2000x16_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v33_0) S2000x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v33_1) S2000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v33_0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33_1) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v53) S64x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v54) S64x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v55) S64x16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S16.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v56) S2000x16.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x128 : Shape := ⟨2, ![100000, 128]⟩
abbrev S100000x2x64 : Shape := ⟨3, ![100000, 2, 64]⟩
abbrev S2x1600000 : Shape := ⟨2, ![2, 1600000]⟩
abbrev S64x128 : Shape := ⟨2, ![64, 128]⟩
abbrev S64 : Shape := ⟨1, ![64]⟩
abbrev S64x64 : Shape := ⟨2, ![64, 64]⟩
abbrev S16x64 : Shape := ⟨2, ![16, 64]⟩
abbrev S16 : Shape := ⟨1, ![16]⟩
abbrev S_ : Shape := ⟨0, ![]⟩
abbrev S100000x64 : Shape := ⟨2, ![100000, 64]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S128x64 : Shape := ⟨2, ![128, 64]⟩
abbrev S1x64 : Shape := ⟨2, ![1, 64]⟩
abbrev S1600000x64 : Shape := ⟨2, ![1600000, 64]⟩
abbrev S64x16 : Shape := ⟨2, ![64, 16]⟩
abbrev S100000x16 : Shape := ⟨2, ![100000, 16]⟩
abbrev S1x16 : Shape := ⟨2, ![1, 16]⟩

abbrev nBuf : Space → Nat
  | .hbm => 107
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x2x64, .f32⟩
  | .hbm, ⟨2, _⟩ => ⟨S2x1600000, .i32⟩
  | .hbm, ⟨3, _⟩ => ⟨S64x128, .f32⟩
  | .hbm, ⟨4, _⟩ => ⟨S64, .f32⟩
  | .hbm, ⟨5, _⟩ => ⟨S64x128, .f32⟩
  | .hbm, ⟨6, _⟩ => ⟨S64x64, .f32⟩
  | .hbm, ⟨7, _⟩ => ⟨S64, .f32⟩
  | .hbm, ⟨8, _⟩ => ⟨S16x64, .f32⟩
  | .hbm, ⟨9, _⟩ => ⟨S16, .f32⟩
  | .hbm, ⟨10, _⟩ => ⟨S16x64, .f32⟩
  | .hbm, ⟨11, _⟩ => ⟨S16x64, .f32⟩
  | .hbm, ⟨12, _⟩ => ⟨S16, .f32⟩
  | .hbm, ⟨13, _⟩ => ⟨S_, .f32⟩
  | .hbm, ⟨14, _⟩ => ⟨S100000x64, .f32⟩
  | .hbm, ⟨15, _⟩ => ⟨S_, .f32⟩
  | .hbm, ⟨16, _⟩ => ⟨S100000x64, .f32⟩
  | .hbm, ⟨17, _⟩ => ⟨S100000x64, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S_, .f32⟩
  | .hbm, ⟨36, _⟩ => ⟨S1600000, .f32⟩
  | .hbm, ⟨37, _⟩ => ⟨S_, .f32⟩
  | .hbm, ⟨38, _⟩ => ⟨S100000, .f32⟩
  | .hbm, ⟨39, _⟩ => ⟨S1600000x1, .i32⟩
  | .hbm, ⟨40, _⟩ => ⟨S100000, .f32⟩
  | .hbm, ⟨41, _⟩ => ⟨S_, .f32⟩
  | .hbm, ⟨42, _⟩ => ⟨S100000, .f32⟩
  | .hbm, ⟨43, _⟩ => ⟨S100000, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S128x64, .f32⟩
  | .hbm, ⟨48, _⟩ => ⟨S100000x64, .f32⟩
  | .hbm, ⟨49, _⟩ => ⟨S1x64, .f32⟩
  | .hbm, ⟨50, _⟩ => ⟨S100000x64, .f32⟩
  | .hbm, ⟨51, _⟩ => ⟨S100000x64, .f32⟩
  | .hbm, ⟨52, _⟩ => ⟨S128x64, .f32⟩
  | .hbm, ⟨53, _⟩ => ⟨S100000x64, .f32⟩
  | .hbm, ⟨54, _⟩ => ⟨S100000x64, .f32⟩
  | .hbm, ⟨55, _⟩ => ⟨S64x64, .f32⟩
  | .hbm, ⟨56, _⟩ => ⟨S100000x64, .f32⟩
  | .hbm, ⟨57, _⟩ => ⟨S1x64, .f32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S_, .f32⟩
  | .hbm, ⟨62, _⟩ => ⟨S100000x64, .f32⟩
  | .hbm, ⟨63, _⟩ => ⟨S100000x64, .f32⟩
  | .hbm, ⟨64, _⟩ => ⟨S1x1600000, .i32⟩
  | .hbm, ⟨65, _⟩ => ⟨S1600000, .i32⟩
  | .hbm, ⟨66, _⟩ => ⟨S1x1600000, .i32⟩
  | .hbm, ⟨67, _⟩ => ⟨S1600000, .i32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x64, .f32⟩
  | .hbm, ⟨77, _⟩ => ⟨S_, .f32⟩
  | .hbm, ⟨78, _⟩ => ⟨S100000x64, .f32⟩
  | .hbm, ⟨79, _⟩ => ⟨S1600000x1, .i32⟩
  | .hbm, ⟨80, _⟩ => ⟨S100000x64, .f32⟩
  | .hbm, ⟨81, _⟩ => ⟨S_, .f32⟩
  | .hbm, ⟨82, _⟩ => ⟨S1600000, .f32⟩
  | .hbm, ⟨83, _⟩ => ⟨S_, .f32⟩
  | .hbm, ⟨84, _⟩ => ⟨S100000, .f32⟩
  | .hbm, ⟨85, _⟩ => ⟨S1600000x1, .i32⟩
  | .hbm, ⟨86, _⟩ => ⟨S100000, .f32⟩
  | .hbm, ⟨87, _⟩ => ⟨S_, .f32⟩
  | .hbm, ⟨88, _⟩ => ⟨S100000, .f32⟩
  | .hbm, ⟨89, _⟩ => ⟨S100000, .f32⟩
  | .hbm, ⟨90, _⟩ => ⟨S100000x1, .f32⟩
  | .hbm, ⟨91, _⟩ => ⟨S100000x64, .f32⟩
  | .hbm, ⟨92, _⟩ => ⟨S100000x64, .f32⟩
  | .hbm, ⟨93, _⟩ => ⟨S64x16, .f32⟩
  | .hbm, ⟨94, _⟩ => ⟨S100000x16, .f32⟩
  | .hbm, ⟨95, _⟩ => ⟨S1x16, .f32⟩
  | .hbm, ⟨96, _⟩ => ⟨S100000x16, .f32⟩
  | .hbm, ⟨97, _⟩ => ⟨S100000x16, .f32⟩
  | .hbm, ⟨98, _⟩ => ⟨S64x16, .f32⟩
  | .hbm, ⟨99, _⟩ => ⟨S100000x16, .f32⟩
  | .hbm, ⟨100, _⟩ => ⟨S100000x16, .f32⟩
  | .hbm, ⟨101, _⟩ => ⟨S64x16, .f32⟩
  | .hbm, ⟨102, _⟩ => ⟨S100000x16, .f32⟩
  | .hbm, ⟨103, _⟩ => ⟨S1x16, .f32⟩
  | .hbm, ⟨104, _⟩ => ⟨S100000x16, .f32⟩
  | .hbm, ⟨105, _⟩ => ⟨S100000x16, .f32⟩
  | .hbm, ⟨106, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_c_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call0_cst : Ref sig .tc := ⟨.hbm, 61, rfl⟩
abbrev main_call0_v0 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_6 : Ref sig .tc := ⟨.hbm, 68, rfl⟩
abbrev main_v45 : Ref sig .tc := ⟨.hbm, 69, rfl⟩
abbrev main_v46 : Ref sig .tc := ⟨.hbm, 70, rfl⟩
abbrev main_c_7 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_8 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_9 : Ref sig .tc := ⟨.hbm, 81, rfl⟩
abbrev main_v55 : Ref sig .tc := ⟨.hbm, 82, rfl⟩
abbrev main_cst_10 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩

abbrev nD : Nat := 1
abbrev τ : Topo := Topo.v7x

variable {F : FTy → Type} [FloatOps F]

class Facts₀ : Prop where
  reducesTo_S100000x2x64_S100000x64_d1 : S100000x2x64.ReducesTo [1] S100000x64
  h_S_ : 0 < S_.numel
  bcast_S_S100000x64 : S_.BroadcastsInDim S100000x64 (![] : Fin 0 → Fin S100000x64.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S64x64_S64x64_1_0 : S64x64.Transposes [1, 0] S64x64
  bcast_S100000x1_S100000x64_0_1 : S100000x1.BroadcastsInDim S100000x64 (![0, 1] : Fin 2 → Fin S100000x64.rank)
  transposes_S16x64_S64x16_1_0 : S16x64.Transposes [1, 0] S64x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x16_S100000x16_1_0_0_1_n_n_wf : DotDims.WF S100000x64 S64x16 S100000x16 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.Spec.lean ====
/-
  What the two layers compute, index by index, over the extended reals.

  Layer 0 (hidden width 64): for node `i` and channel `j`
    e0[i, j] = (Σ_k eraw[i, k] · WeT[k, j]) + be[j]
    h[i, j]  = max ((((Σ_k agg[i, k] · WlT[k, j]) + bl[j]) + Σ_k x[i, k] · WrT[k, j]) + e0[i, j]) 0
  Layer 1 (output width 16):
    out[i, j] = (((Σ_k agg[i, k] · WlT[k, j]) + bl[j]) + Σ_k h[i, k] · WrT[k, j]) + ((Σ_k e0[i, k] · WeT[k, j]) + be[j])
  The weights enter already transposed (contraction axis first), as both programs hold them when they multiply.
  Only the grouping of the sums written here is used; no law of the extended reals is needed to join the two programs,
  because both group their additions this way.
-/
import Idealize.ShloMosaic.PureOps.Ideal
import Idealize.ShloMosaic.Lib.ValueIdx

noncomputable section

open scoped BigOperators

namespace Cert.Sage

open Idealize.ShloMosaic Idealize.ShloMosaic.ValueIdx

abbrev SN128 : Shape := ⟨2, ![100000, 128]⟩
abbrev SN64 : Shape := ⟨2, ![100000, 64]⟩
abbrev SN16 : Shape := ⟨2, ![100000, 16]⟩
abbrev SW128x64 : Shape := ⟨2, ![128, 64]⟩
abbrev SW64x64 : Shape := ⟨2, ![64, 64]⟩
abbrev SW64x16 : Shape := ⟨2, ![64, 16]⟩
abbrev SB64 : Shape := ⟨1, ![64]⟩
abbrev SB16 : Shape := ⟨1, ![16]⟩

/-- The embedding branch of layer 0 at node `p`, channel `q`: a row of `eraw` against a column of `WeT`, plus the bias. -/
def emb0At (eraw : FVec Ideal SN64 .f32) (weT : FVec Ideal SW64x64 .f32) (be : FVec Ideal SB64 .f32)
    (p : Fin 100000) (q : Fin 64) : EReal :=
  (∑ k : Fin 64, eraw (ix2 p k) * weT (ix2 k q)) + be (ix1 q)

/-- The embedding branch of layer 0 as an array. -/
def emb0 (eraw : FVec Ideal SN64 .f32) (weT : FVec Ideal SW64x64 .f32) (be : FVec Ideal SB64 .f32) : FVec Ideal SN64 .f32 :=
  fun i => emb0At eraw weT be ⟨(i 0).val, idx2_lt0 i⟩ ⟨(i 1).val, idx2_lt1 i⟩

/-- The hidden features of layer 0 at node `p`, channel `q`: neighbour mean through `WlT` plus its bias, plus the
    node's own features through `WrT`, plus the embedding branch, clipped below at zero. -/
def hid0At (x agg : FVec Ideal SN128 .f32) (eraw : FVec Ideal SN64 .f32) (wlT wrT : FVec Ideal SW128x64 .f32)
    (weT : FVec Ideal SW64x64 .f32) (bl be : FVec Ideal SB64 .f32) (p : Fin 100000) (q : Fin 64) : EReal :=
  max ((((∑ k : Fin 128, agg (ix2 p k) * wlT (ix2 k q)) + bl (ix1 q)) + ∑ k : Fin 128, x (ix2 p k) * wrT (ix2 k q))
    + emb0At eraw weT be p q) 0

/-- The hidden features of layer 0 as an array. -/
def hid0 (x agg : FVec Ideal SN128 .f32) (eraw : FVec Ideal SN64 .f32) (wlT wrT : FVec Ideal SW128x64 .f32)
    (weT : FVec Ideal SW64x64 .f32) (bl be : FVec Ideal SB64 .f32) : FVec Ideal SN64 .f32 :=
  fun i => hid0At x agg eraw wlT wrT weT bl be ⟨(i 0).val, idx2_lt0 i⟩ ⟨(i 1).val, idx2_lt1 i⟩

/-- The output of layer 1 at node `p`, channel `q`. -/
def out1At (h agg e : FVec Ideal SN64 .f32) (wlT wrT weT : FVec Ideal SW64x16 .f32) (bl be : FVec Ideal SB16 .f32)
    (p : Fin 100000) (q : Fin 16) : EReal :=
  (((∑ k : Fin 64, agg (ix2 p k) * wlT (ix2 k q)) + bl (ix1 q)) + ∑ k : Fin 64, h (ix2 p k) * wrT (ix2 k q))
    + ((∑ k : Fin 64, e (ix2 p k) * weT (ix2 k q)) + be (ix1 q))

/-- The output of layer 1 as an array. -/
def out1 (h agg e : FVec Ideal SN64 .f32) (wlT wrT weT : FVec Ideal SW64x16 .f32) (bl be : FVec Ideal SB16 .f32) :
    FVec Ideal SN16 .f32 :=
  fun i => out1At h agg e wlT wrT weT bl be ⟨(i 0).val, idx2_lt0 i⟩ ⟨(i 1).val, idx2_lt1 i⟩

theorem emb0_ix (eraw : FVec Ideal SN64 .f32) (weT : FVec Ideal SW64x64 .f32) (be : FVec Ideal SB64 .f32)
    (p : Fin 100000) (q : Fin 64) : emb0 eraw weT be (ix2 p q) = emb0At eraw weT be p q := rfl

theorem hid0_ix (x agg : FVec Ideal SN128 .f32) (eraw : FVec Ideal SN64 .f32) (wlT wrT : FVec Ideal SW128x64 .f32)
    (weT : FVec Ideal SW64x64 .f32) (bl be : FVec Ideal SB64 .f32) (p : Fin 100000) (q : Fin 64) :
    hid0 x agg eraw wlT wrT weT bl be (ix2 p q) = hid0At x agg eraw wlT wrT weT bl be p q := rfl

theorem out1_ix (h agg e : FVec Ideal SN64 .f32) (wlT wrT weT : FVec Ideal SW64x16 .f32) (bl be : FVec Ideal SB16 .f32)
    (p : Fin 100000) (q : Fin 16) : out1 h agg e wlT wrT weT bl be (ix2 p q) = out1At h agg e wlT wrT weT bl be p q := rfl

end Cert.Sage

end
-- ==== Proof.KernelHost.lean ====
/-
  The host-side functions of the kernel program, named: the source and destination rows of the edge list, the
  neighbour mean (a gather of the source rows, a scatter-add onto the destination rows, divided by the in-degree clipped
  below at one), the mean of the two embedding slots, and the whole network as the two layers' formulas over them.
-/
import proofs.«142642_j87917980549692_1_alg».proof.Proof.Gen.KernelIdeal
import proofs.«142642_j87917980549692_1_alg».proof.Proof.Spec

noncomputable section

namespace Cert.KernelIdeal.KHost

open Cert.KernelIdeal Cert.KernelIdeal.Gen Idealize.ShloMosaic

abbrev CI (S : Shape) := (⟨S, .i32⟩ : BufTy).Contents (Elt Ideal)
abbrev CF (S : Shape) := (⟨S, .f32⟩ : BufTy).Contents (Elt Ideal)

/-- Row 0 of the edge list: the source node of each edge. -/
def srcOf (e : CI S2x1600000) : CI S1600000 :=
  shapeCast S1600000 (extractStridedSlice S1x1600000 ![0, 0] e slices_S2x1600000_S1x1600000_0_0) shapeCasts_S1x1600000_S1600000

/-- Row 1 of the edge list: the destination node of each edge. -/
def dstOf (e : CI S2x1600000) : CI S1600000 :=
  shapeCast S1600000 (extractStridedSlice S1x1600000 ![1, 0] e slices_S2x1600000_S1x1600000_1_0) shapeCasts_S1x1600000_S1600000

/-- The gather's start indices: a negative source index counts from the end. -/
def wrapIdx (src : CI S1600000) : CI S1600000x1 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The in-degree of each node, clipped below at one. -/
def degOf (dst : CI S1600000) : CF S100000 :=
  maximumf
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 dst)
      (broadcastInDim S1600000 ![] bcast_S_S1600000 (constant (F := Ideal) S_ .f32 0x3F800000#32)))
    (broadcastInDim S100000 ![] bcast_S_S100000 (constant (F := Ideal) S_ .f32 0x3F800000#32))

/-- The neighbour mean of width-128 features. -/
def agg128 (x : CF S100000x128) (src dst : CI S1600000) : CF S100000x128 :=
  Host.divf
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128 x (wrapIdx src)))
    (broadcastInDim S100000x128 ![0, 1] bcast_S100000x1_S100000x128_0_1
      (broadcastInDim S100000x1 ![0] bcast_S100000_S100000x1_0 (degOf dst)))

/-- The neighbour mean of width-64 features. -/
def agg64 (h : CF S100000x64) (src dst : CI S1600000) : CF S100000x64 :=
  Host.divf
    (Host.scatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dst)
      (Host.gather gather_S100000x64_S1600000x1_S1600000x64_1_0_n_n_0_1_164 h (wrapIdx src)))
    (broadcastInDim S100000x64 ![0, 1] bcast_S100000x1_S100000x64_0_1
      (broadcastInDim S100000x1 ![0] bcast_S100000_S100000x1_0 (degOf dst)))

/-- The two embedding slots of each node, added and halved. -/
def erawOf (x1 : CF S100000x2x64) : CF S100000x64 :=
  mulf
    (addf
      (shapeCast S100000x64 (extractStridedSlice S100000x1x64 ![0, 0, 0] x1 slices_S100000x2x64_S100000x1x64_0_0_0) shapeCasts_S100000x1x64_S100000x64)
      (shapeCast S100000x64 (extractStridedSlice S100000x1x64 ![0, 1, 0] x1 slices_S100000x2x64_S100000x1x64_0_1_0) shapeCasts_S100000x1x64_S100000x64))
    (broadcastInDim S100000x64 ![] bcast_S_S100000x64 (constant (F := Ideal) S_ .f32 0x3F000000#32))

/-- The first layer's hidden features over a given embedding mean `er`. -/
def hidOf (er : CF S100000x64) (x0 : CF S100000x128) (e : CI S2x1600000) (x3 : CF S64x128) (x4 : CF S64) (x5 : CF S64x128)
    (x6 : CF S64x64) (x7 : CF S64) : CF S100000x64 :=
  Cert.Sage.hid0 x0 (agg128 x0 (srcOf e) (dstOf e)) er (transpose S128x64 [1, 0] x3 transposes_S64x128_S128x64_1_0)
    (transpose S128x64 [1, 0] x5 transposes_S64x128_S128x64_1_0) (transpose S64x64 [1, 0] x6 transposes_S64x64_S64x64_1_0) x4 x7

/-- The first layer's embedding branch over a given embedding mean `er`. -/
def embOf (er : CF S100000x64) (x6 : CF S64x64) (x7 : CF S64) : CF S100000x64 :=
  Cert.Sage.emb0 er (transpose S64x64 [1, 0] x6 transposes_S64x64_S64x64_1_0) x7

/-- The whole network over a given embedding mean `er`: the second layer's formula of the first layer's two outputs and
    of the neighbour mean of its hidden features. -/
def resultOf (er : CF S100000x64) (x0 : CF S100000x128) (e : CI S2x1600000) (x3 : CF S64x128) (x4 : CF S64) (x5 : CF S64x128)
    (x6 : CF S64x64) (x7 : CF S64) (x8 : CF S16x64) (x9 : CF S16) (x10 x11 : CF S16x64) (x12 : CF S16) : CF S100000x16 :=
  Cert.Sage.out1 (hidOf er x0 e x3 x4 x5 x6 x7) (agg64 (hidOf er x0 e x3 x4 x5 x6 x7) (srcOf e) (dstOf e)) (embOf er x6 x7)
    (transpose S64x16 [1, 0] x8 transposes_S16x64_S64x16_1_0) (transpose S64x16 [1, 0] x10 transposes_S16x64_S64x16_1_0)
    (transpose S64x16 [1, 0] x11 transposes_S16x64_S64x16_1_0) x9 x12

end Cert.KernelIdeal.KHost

end
-- ==== Proof.Region0Value.lean ====
/-
  Region 0 (the first layer's kernel) read as a value: each of its 50 grid points writes rows 2000·t … 2000·t + 1999 of
  the two [100000, 64] results; every entry of the first is the hidden-feature formula (`Cert.Sage.hid0At`) and every
  entry of the second the embedding-branch formula (`Cert.Sage.emb0At`) of the arrays the region finds at entry.
-/
import proofs.«142642_j87917980549692_1_alg».proof.Proof.Gen.KernelIdeal.Frame
import proofs.«142642_j87917980549692_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

/-! ## One block's products, entry by entry -/

/-- In the [2000,128]·[128,64] product the left operand's row is the result's row … -/
theorem lhs_wide_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
/-- … its column the summation index … -/
theorem lhs_wide_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
/-- … the right operand's row the summation index … -/
theorem rhs_wide_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
/-- … and its column the result's column. -/
theorem rhs_wide_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- A block of 2000 rows of width 128 times a [128,64] weight, into a zero accumulator, at row `p` and channel `q`:
    the row against the weight's column. -/
theorem wide_product_apply {φ₁ φ₂ : FTy} (a : FVec Ideal S2000x128 φ₁) (b : FVec Ideal S128x64 φ₂) (p : Fin 2000) (q : Fin 64) :
    matmul dot_S2000x128_S128x64_S2000x64_1_0_0_1_n_n none a b (constant (F := Ideal) S2000x64 .f32 0x00000000#32) (ix2 p q)
      = ∑ k : Fin 128, a (ix2 p k) * b (ix2 k q) := by
  simp only [matmul]
  rw [Ideal.matmul_constant_zero_apply, ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q) ((contrEquiv1 dot_S2000x128_S128x64_S2000x64_1_0_0_1_n_n 128 rfl rfl).symm k) = ix2 p k := funext fun x => Fin.ext (by
    match x with
    | ⟨0, _⟩ => exact lhs_wide_0 _ _
    | ⟨1, _⟩ => exact (lhs_wide_1 _ _).trans hk)
  have er : dot_S2000x128_S128x64_S2000x64_1_0_0_1_n_n.rhsIdx (ix2 p q) ((contrEquiv1 dot_S2000x128_S128x64_S2000x64_1_0_0_1_n_n 128 rfl rfl).symm k) = ix2 k q := funext fun x => Fin.ext (by
    match x with
    | ⟨0, _⟩ => exact (rhs_wide_0 _ _).trans hk
    | ⟨1, _⟩ => exact rhs_wide_1 _ _)
  rw [el, er]

/-- In the [2000,64]·[64,64] product the left operand's row is the result's row … -/
theorem lhs_sq_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
/-- … its column the summation index … -/
theorem lhs_sq_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
/-- … the right operand's row the summation index … -/
theorem rhs_sq_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
/-- … and its column the result's column. -/
theorem rhs_sq_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- A block of 2000 rows of width 64 times a [64,64] weight, into a zero accumulator, at row `p` and channel `q`. -/
theorem sq_product_apply {φ₁ φ₂ : FTy} (a : FVec Ideal S2000x64 φ₁) (b : FVec Ideal S64x64 φ₂) (p : Fin 2000) (q : Fin 64) :
    matmul dot_S2000x64_S64x64_S2000x64_1_0_0_1_n_n none a b (constant (F := Ideal) S2000x64 .f32 0x00000000#32) (ix2 p q)
      = ∑ k : Fin 64, a (ix2 p k) * b (ix2 k q) := by
  simp only [matmul]
  rw [Ideal.matmul_constant_zero_apply, ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q) ((contrEquiv1 dot_S2000x64_S64x64_S2000x64_1_0_0_1_n_n 64 rfl rfl).symm k) = ix2 p k := funext fun x => Fin.ext (by
    match x with
    | ⟨0, _⟩ => exact lhs_sq_0 _ _
    | ⟨1, _⟩ => exact (lhs_sq_1 _ _).trans hk)
  have er : dot_S2000x64_S64x64_S2000x64_1_0_0_1_n_n.rhsIdx (ix2 p q) ((contrEquiv1 dot_S2000x64_S64x64_S2000x64_1_0_0_1_n_n 64 rfl rfl).symm k) = ix2 k q := funext fun x => Fin.ext (by
    match x with
    | ⟨0, _⟩ => exact (rhs_sq_0 _ _).trans hk
    | ⟨1, _⟩ => exact rhs_sq_1 _ _)
  rw [el, er]

/-- A bias of 64 channels laid over 2000 rows reads its channel's entry in every row. -/
theorem bias_rows_apply (b : FVec Ideal S64 .f32) (p : Fin 2000) (q : Fin 64) :
    broadcastTo S2000x64 (shapeCast S1x64 b shapeCasts_S64_S1x64) broadcasts_S1x64_S2000x64 (ix2 p q) = b (ix1 q) := by
  rw [broadcastTo_1b_ab_apply, shapeCast_a_1a_apply]

/-! ## The body's two results on one block -/

/-- The embedding branch on a block: the block's rows of `eraw` against `WeT`, plus the bias. -/
theorem emb_block (we : FVec Ideal S64x64 .f32) (eraw : FVec Ideal S2000x64 .f32) (be : FVec Ideal S64 .f32)
    (p : Fin 2000) (q : Fin 64) :
    k0_pay1 we eraw be (ix2 p q) = (∑ k : Fin 64, eraw (ix2 p k) * we (ix2 k q)) + be (ix1 q) := by
  unfold k0_pay1
  show matmul dot_S2000x64_S64x64_S2000x64_1_0_0_1_n_n none
        (truncf .bf16 (shapeCast S2000x64 eraw shapeCasts_S2000x64_S2000x64) bitsLt_bf16_f32)
        (truncf .bf16 (shapeCast S64x64 we shapeCasts_S64x64_S64x64) bitsLt_bf16_f32)
        (constant (F := Ideal) S2000x64 .f32 0x00000000#32) (ix2 p q)
      + broadcastTo S2000x64 (shapeCast S1x64 be shapeCasts_S64_S1x64) broadcasts_S1x64_S2000x64 (ix2 p q) = _
  rw [sq_product_apply, bias_rows_apply, shapeCast_self, shapeCast_self]
  rfl

/-- The hidden features on a block: neighbour mean through `WlT` plus its bias, plus the block's own rows through
    `WrT`, plus the embedding branch, clipped below at zero. -/
theorem hid_block (x agg : FVec Ideal S2000x128 .f32) (wl wr : FVec Ideal S128x64 .f32) (we : FVec Ideal S64x64 .f32)
    (eraw : FVec Ideal S2000x64 .f32) (be bl : FVec Ideal S64 .f32) (p : Fin 2000) (q : Fin 64) :
    k0_pay2 x agg wl wr we eraw be bl (ix2 p q)
      = max ((((∑ k : Fin 128, agg (ix2 p k) * wl (ix2 k q)) + bl (ix1 q)) + ∑ k : Fin 128, x (ix2 p k) * wr (ix2 k q))
          + ((∑ k : Fin 64, eraw (ix2 p k) * we (ix2 k q)) + be (ix1 q))) 0 := by
  unfold k0_pay2
  show max (((matmul dot_S2000x128_S128x64_S2000x64_1_0_0_1_n_n none
            (truncf .bf16 (shapeCast S2000x128 agg shapeCasts_S2000x128_S2000x128) bitsLt_bf16_f32)
            (truncf .bf16 (shapeCast S128x64 wl shapeCasts_S128x64_S128x64) bitsLt_bf16_f32)
            (constant (F := Ideal) S2000x64 .f32 0x00000000#32) (ix2 p q)
          + broadcastTo S2000x64 (shapeCast S1x64 bl shapeCasts_S64_S1x64) broadcasts_S1x64_S2000x64 (ix2 p q))
        + matmul dot_S2000x128_S128x64_S2000x64_1_0_0_1_n_n none
            (truncf .bf16 x bitsLt_bf16_f32)
            (truncf .bf16 (shapeCast S128x64 wr shapeCasts_S128x64_S128x64) bitsLt_bf16_f32)
            (constant (F := Ideal) S2000x64 .f32 0x00000000#32) (ix2 p q))
        + k0_pay1 we eraw be (ix2 p q)) (Ideal.ofBits .f32 0x00000000#32) = _
  rw [wide_product_apply, wide_product_apply, bias_rows_apply, emb_block, Ideal.ofBits_zero_f32,
    shapeCast_self, shapeCast_self, shapeCast_self]
  rfl

/-! ## From blocks to the arrays -/

variable (V : (c : Dev nD) → (b : Ref sig .tc) → Buf (Elt Ideal) ((c : Thread nD τ).loc b))

theorem zero_pair : (![0, 0] : Fin 2 → Nat) = fun _ => 0 := funext fun a => by fin_cases a <;> rfl
theorem zero_single : (![0] : Fin 1 → Nat) = fun _ => 0 := funext fun a => by fin_cases a <;> rfl

/-- The index maps over the grid: every row-blocked window sits at block row `t`, block column 0, at point `t`; the
    weights and biases at block 0 throughout. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- What point `t` writes back into the second result is block `t` of the embedding branch. -/
theorem emb_flushed (c : Dev nD) (t : Fin cfg0.N) :
    (dat0 (F := Ideal) V c).flushed 9 t
      = ((cfg0.win 9).blk t).view.read (Elt Ideal) (Cert.Sage.emb0 (V c main_v29) (V c main_v32) (V c main_arg7)) := by
  show (cfg0.win 9).cut (grid0.coords t) ((dat0 V c).after 9 t) = _
  rw [after0_9]
  unfold out0_9
  rw [View.canon_unit_zero zero_pair]
  simp only [View.ld_unit_zero (S := S64x64) zero_pair, View.ld_unit_zero (S := S2000x64) zero_pair,
    View.ld_unit_zero (S := S64) zero_single]
  funext j
  obtain ⟨p, q, rfl⟩ : ∃ (p : Fin 2000) (q : Fin 64), j = ix2 p q := ⟨j 0, j 1, eq_ix2 j⟩
  show k0_pay1 (iblk0 V c 6 t) (iblk0 V c 2 t) (iblk0 V c 7 t) (ix2 p q)
    = Cert.Sage.emb0At (V c main_v29) (V c main_v32) (V c main_arg7)
        ⟨_, idx2_lt0 (((cfg0.win 9).blk t).view.emb (ix2 p q))⟩ ⟨_, idx2_lt1 (((cfg0.win 9).blk t).view.emb (ix2 p q))⟩
  rw [emb_block]
  unfold Cert.Sage.emb0At
  obtain ⟨-, -, -, -, e20, e21, -, -, -, -, -, e60, e61, e70, -, -, e90, e91⟩ := index_facts t
  refine congrArg₂ (· + ·) (Finset.sum_congr rfl fun k _ => congrArg₂ (· * ·) ?_ ?_) ?_
  · show V c main_v29 (((cfg0.win 2).blk t).view.emb (ix2 p k)) = V c main_v29 _
    refine congrArg (V c main_v29) (funext fun a => Fin.ext ?_)
    match a with
    | ⟨0, _⟩ => show win0_2.index t (0 : Fin 2) * 2000 + 1 * p.val = win0_9.index t (0 : Fin 2) * 2000 + 1 * p.val; omega
    | ⟨1, _⟩ => show win0_2.index t (1 : Fin 2) * 64 + 1 * k.val = k.val; omega
  · show V c main_v32 (((cfg0.win 6).blk t).view.emb (ix2 k q)) = V c main_v32 _
    refine congrArg (V c main_v32) (funext fun a => Fin.ext ?_)
    match a with
    | ⟨0, _⟩ => show win0_6.index t (0 : Fin 2) * 64 + 1 * k.val = k.val; omega
    | ⟨1, _⟩ => show win0_6.index t (1 : Fin 2) * 64 + 1 * q.val = win0_9.index t (1 : Fin 2) * 64 + 1 * q.val; omega
  · show V c main_arg7 (((cfg0.win 7).blk t).view.emb (ix1 q)) = V c main_arg7 _
    refine congrArg (V c main_arg7) (funext fun a => Fin.ext ?_)
    match a with
    | ⟨0, _⟩ => show win0_7.index t (0 : Fin 1) * 64 + 1 * q.val = win0_9.index t (1 : Fin 2) * 64 + 1 * q.val; omega

/-- What point `t` writes back into the first result is block `t` of the hidden features. -/
theorem hid_flushed (c : Dev nD) (t : Fin cfg0.N) :
    (dat0 (F := Ideal) V c).flushed 8 t
      = ((cfg0.win 8).blk t).view.read (Elt Ideal)
          (Cert.Sage.hid0 (V c main_arg0) (V c main_v22) (V c main_v29) (V c main_v30) (V c main_v31) (V c main_v32)
            (V c main_arg4) (V c main_arg7)) := by
  show (cfg0.win 8).cut (grid0.coords t) ((dat0 V c).after 8 t) = _
  rw [after0_8]
  unfold out0_8
  rw [View.canon_unit_zero zero_pair]
  simp only [View.ld_unit_zero (S := S2000x128) zero_pair, View.ld_unit_zero (S := S128x64) zero_pair,
    View.ld_unit_zero (S := S64x64) zero_pair, View.ld_unit_zero (S := S2000x64) zero_pair,
    View.ld_unit_zero (S := S64) zero_single]
  funext j
  obtain ⟨p, q, rfl⟩ : ∃ (p : Fin 2000) (q : Fin 64), j = ix2 p q := ⟨j 0, j 1, eq_ix2 j⟩
  show k0_pay2 (iblk0 V c 0 t) (iblk0 V c 1 t) (iblk0 V c 3 t) (iblk0 V c 5 t) (iblk0 V c 6 t) (iblk0 V c 2 t)
      (iblk0 V c 7 t) (iblk0 V c 4 t) (ix2 p q)
    = Cert.Sage.hid0At (V c main_arg0) (V c main_v22) (V c main_v29) (V c main_v30) (V c main_v31) (V c main_v32)
        (V c main_arg4) (V c main_arg7)
        ⟨_, idx2_lt0 (((cfg0.win 8).blk t).view.emb (ix2 p q))⟩ ⟨_, idx2_lt1 (((cfg0.win 8).blk t).view.emb (ix2 p q))⟩
  rw [hid_block]
  unfold Cert.Sage.hid0At Cert.Sage.emb0At
  obtain ⟨e00, e01, e10, e11, e20, e21, e30, e31, e40, e50, e51, e60, e61, e70, e80, e81, -, -⟩ := index_facts t
  refine congrArg (max · 0) (congrArg₂ (· + ·) (congrArg₂ (· + ·) (congrArg₂ (· + ·)
    (Finset.sum_congr rfl fun k _ => congrArg₂ (· * ·) ?_ ?_) ?_)
    (Finset.sum_congr rfl fun k _ => congrArg₂ (· * ·) ?_ ?_))
    (congrArg₂ (· + ·) (Finset.sum_congr rfl fun k _ => congrArg₂ (· * ·) ?_ ?_) ?_))
  · show V c main_v22 (((cfg0.win 1).blk t).view.emb (ix2 p k)) = V c main_v22 _
    refine congrArg (V c main_v22) (funext fun a => Fin.ext ?_)
    match a with
    | ⟨0, _⟩ => show win0_1.index t (0 : Fin 2) * 2000 + 1 * p.val = win0_8.index t (0 : Fin 2) * 2000 + 1 * p.val; omega
    | ⟨1, _⟩ => show win0_1.index t (1 : Fin 2) * 128 + 1 * k.val = k.val; omega
  · show V c main_v30 (((cfg0.win 3).blk t).view.emb (ix2 k q)) = V c main_v30 _
    refine congrArg (V c main_v30) (funext fun a => Fin.ext ?_)
    match a with
    | ⟨0, _⟩ => show win0_3.index t (0 : Fin 2) * 128 + 1 * k.val = k.val; omega
    | ⟨1, _⟩ => show win0_3.index t (1 : Fin 2) * 64 + 1 * q.val = win0_8.index t (1 : Fin 2) * 64 + 1 * q.val; omega
  · show V c main_arg4 (((cfg0.win 4).blk t).view.emb (ix1 q)) = V c main_arg4 _
    refine congrArg (V c main_arg4) (funext fun a => Fin.ext ?_)
    match a with
    | ⟨0, _⟩ => show win0_4.index t (0 : Fin 1) * 64 + 1 * q.val = win0_8.index t (1 : Fin 2) * 64 + 1 * q.val; omega
  · show V c main_arg0 (((cfg0.win 0).blk t).view.emb (ix2 p k)) = V c main_arg0 _
    refine congrArg (V c main_arg0) (funext fun a => Fin.ext ?_)
    match a with
    | ⟨0, _⟩ => show win0_0.index t (0 : Fin 2) * 2000 + 1 * p.val = win0_8.index t (0 : Fin 2) * 2000 + 1 * p.val; omega
    | ⟨1, _⟩ => show win0_0.index t (1 : Fin 2) * 128 + 1 * k.val = k.val; omega
  · show V c main_v31 (((cfg0.win 5).blk t).view.emb (ix2 k q)) = V c main_v31 _
    refine congrArg (V c main_v31) (funext fun a => Fin.ext ?_)
    match a with
    | ⟨0, _⟩ => show win0_5.index t (0 : Fin 2) * 128 + 1 * k.val = k.val; omega
    | ⟨1, _⟩ => show win0_5.index t (1 : Fin 2) * 64 + 1 * q.val = win0_8.index t (1 : Fin 2) * 64 + 1 * q.val; omega
  · show V c main_v29 (((cfg0.win 2).blk t).view.emb (ix2 p k)) = V c main_v29 _
    refine congrArg (V c main_v29) (funext fun a => Fin.ext ?_)
    match a with
    | ⟨0, _⟩ => show win0_2.index t (0 : Fin 2) * 2000 + 1 * p.val = win0_8.index t (0 : Fin 2) * 2000 + 1 * p.val; omega
    | ⟨1, _⟩ => show win0_2.index t (1 : Fin 2) * 64 + 1 * k.val = k.val; omega
  · show V c main_v32 (((cfg0.win 6).blk t).view.emb (ix2 k q)) = V c main_v32 _
    refine congrArg (V c main_v32) (funext fun a => Fin.ext ?_)
    match a with
    | ⟨0, _⟩ => show win0_6.index t (0 : Fin 2) * 64 + 1 * k.val = k.val; omega
    | ⟨1, _⟩ => show win0_6.index t (1 : Fin 2) * 64 + 1 * q.val = win0_8.index t (1 : Fin 2) * 64 + 1 * q.val; omega
  · show V c main_arg7 (((cfg0.win 7).blk t).view.emb (ix1 q)) = V c main_arg7 _
    refine congrArg (V c main_arg7) (funext fun a => Fin.ext ?_)
    match a with
    | ⟨0, _⟩ => show win0_7.index t (0 : Fin 1) * 64 + 1 * q.val = win0_8.index t (1 : Fin 2) * 64 + 1 * q.val; omega

/-! ## Every row lies in the block of its grid point -/

/-- An index of the first result lies in point `t`'s block iff each coordinate is in the block's range on its axis. -/
theorem mem_hid_blk (t : Fin cfg0.N) (i : S100000x64.Idx) :
    i ∈ ((cfg0.win 8).blk t).view.set ↔ ∀ a : Fin 2, win0_8.index t a * S2000x64.size a ≤ (i a).val ∧ (i a).val < win0_8.index t a * S2000x64.size a + S2000x64.size a := by
  show i ∈ ((View.whole main_v33_0).slice (win0_8.rect t)).set ↔ _
  rw [View.set_slice_whole, Rect.mem_set_unit]
  exact Iff.rfl

/-- The same for the second result. -/
theorem mem_emb_blk (t : Fin cfg0.N) (i : S100000x64.Idx) :
    i ∈ ((cfg0.win 9).blk t).view.set ↔ ∀ a : Fin 2, win0_9.index t a * S2000x64.size a ≤ (i a).val ∧ (i a).val < win0_9.index t a * S2000x64.size a + S2000x64.size a := by
  show i ∈ ((View.whole main_v33_1).slice (win0_9.rect t)).set ↔ _
  rw [View.set_slice_whole, Rect.mem_set_unit]
  exact Iff.rfl

/-- Row `r` of the first result is written by point `r / 2000`. -/
theorem hid_cover (i : S100000x64.Idx) :
    ∃ t : Fin cfg0.N, (cfg0.win 8).flush t = true ∧ i ∈ ((cfg0.win 8).blk t).view.set := by
  have hi0 : (i 0).val < 100000 := idx2_lt0 i
  have hi1 : (i 1).val < 64 := idx2_lt1 i
  have hN : cfg0.N = 50 := N_0
  obtain ⟨t, ht⟩ : ∃ t : Fin cfg0.N, t.val = (i 0).val / 2000 := ⟨⟨(i 0).val / 2000, by rw [hN]; omega⟩, rfl⟩
  refine ⟨t, flush0_8 t, ?_⟩
  rw [mem_hid_blk]
  obtain ⟨-, -, -, -, -, -, -, -, -, -, -, -, -, -, e80, e81, -, -⟩ := index_facts t
  intro a
  match a with
  | ⟨0, _⟩ => show win0_8.index t (0 : Fin 2) * 2000 ≤ (i 0).val ∧ (i 0).val < win0_8.index t (0 : Fin 2) * 2000 + 2000; omega
  | ⟨1, _⟩ => show win0_8.index t (1 : Fin 2) * 64 ≤ (i 1).val ∧ (i 1).val < win0_8.index t (1 : Fin 2) * 64 + 64; omega

/-- Row `r` of the second result is written by point `r / 2000`. -/
theorem emb_cover (i : S100000x64.Idx) :
    ∃ t : Fin cfg0.N, (cfg0.win 9).flush t = true ∧ i ∈ ((cfg0.win 9).blk t).view.set := by
  have hi0 : (i 0).val < 100000 := idx2_lt0 i
  have hi1 : (i 1).val < 64 := idx2_lt1 i
  have hN : cfg0.N = 50 := N_0
  obtain ⟨t, ht⟩ : ∃ t : Fin cfg0.N, t.val = (i 0).val / 2000 := ⟨⟨(i 0).val / 2000, by rw [hN]; omega⟩, rfl⟩
  refine ⟨t, flush0_9 t, ?_⟩
  rw [mem_emb_blk]
  obtain ⟨-, -, -, -, -, -, -, -, -, -, -, -, -, -, -, -, e90, e91⟩ := index_facts t
  intro a
  match a with
  | ⟨0, _⟩ => show win0_9.index t (0 : Fin 2) * 2000 ≤ (i 0).val ∧ (i 0).val < win0_9.index t (0 : Fin 2) * 2000 + 2000; omega
  | ⟨1, _⟩ => show win0_9.index t (1 : Fin 2) * 64 ≤ (i 1).val ∧ (i 1).val < win0_9.index t (1 : Fin 2) * 64 + 64; omega

/-! ## The two arrays after the region -/

/-- After region 0 its first result array holds the hidden features of the arrays the region found at entry. -/
theorem hid_eq (c : Dev nD) :
    (dat0 (F := Ideal) V c).arrAt 8 cfg0.N
      = Cert.Sage.hid0 (V c main_arg0) (V c main_v22) (V c main_v29) (V c main_v30) (V c main_v31) (V c main_v32)
          (V c main_arg4) (V c main_arg7) :=
  (dat0 (F := Ideal) V c).arrAt_eq_of_cover 8 _ (fun t _ => hid_flushed V c t) hid_cover

/-- After region 0 its second result array holds the embedding branch of the arrays the region found at entry. -/
theorem emb_eq (c : Dev nD) :
    (dat0 (F := Ideal) V c).arrAt 9 cfg0.N = Cert.Sage.emb0 (V c main_v29) (V c main_v32) (V c main_arg7) :=
  (dat0 (F := Ideal) V c).arrAt_eq_of_cover 9 _ (fun t _ => emb_flushed V c t) emb_cover

end Cert.KernelIdeal.Region0

end
-- ==== Proof.Region1Value.lean ====
/-
  Region 1 (the second layer's kernel) read as a value: each of its 50 grid points writes rows 2000·t … 2000·t + 1999 of
  the [100000, 16] result, and every entry written is the second layer's formula (`Cert.Sage.out1At`) of the arrays the
  region finds at entry.
-/
import proofs.«142642_j87917980549692_1_alg».proof.Proof.Gen.KernelIdeal.Frame
import proofs.«142642_j87917980549692_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## One product of the layer: a row of the left factor against a column of the right one -/

/-- The left factor's row coordinate is the result's row. -/
theorem lhs_row (i : S2000x16.Idx) (q : dot_S2000x64_S64x16_S2000x16_1_0_0_1_n_n.contr.Idx) :
    (dot_S2000x64_S64x16_S2000x16_1_0_0_1_n_n.lhsIdx i q 0).val = (i 0).val := by
  unfold DotDims.lhsIdx
  rw [dif_neg (show ¬(0 : Fin S2000x64.rank) ∈ dot_S2000x64_S64x16_S2000x16_1_0_0_1_n_n.lhsBatch by decide), dif_pos (show (0 : Fin S2000x64.rank) ∈ dot_S2000x64_S64x16_S2000x16_1_0_0_1_n_n.lhsNonContracting by decide)]
  rfl
/-- The left factor's column coordinate is the summation index. -/
theorem lhs_contr (i : S2000x16.Idx) (q : dot_S2000x64_S64x16_S2000x16_1_0_0_1_n_n.contr.Idx) :
    (dot_S2000x64_S64x16_S2000x16_1_0_0_1_n_n.lhsIdx i q 1).val = (q ⟨0, by decide⟩).val :=
  dot_S2000x64_S64x16_S2000x16_1_0_0_1_n_n.lhsIdx_val_of_single rfl i q
/-- The right factor's row coordinate is the summation index. -/
theorem rhs_contr (i : S2000x16.Idx) (q : dot_S2000x64_S64x16_S2000x16_1_0_0_1_n_n.contr.Idx) :
    (dot_S2000x64_S64x16_S2000x16_1_0_0_1_n_n.rhsIdx i q 0).val = (q ⟨0, by decide⟩).val :=
  dot_S2000x64_S64x16_S2000x16_1_0_0_1_n_n.rhsIdx_val_of_single rfl i q
/-- The right factor's column coordinate is the result's column. -/
theorem rhs_col (i : S2000x16.Idx) (q : dot_S2000x64_S64x16_S2000x16_1_0_0_1_n_n.contr.Idx) :
    (dot_S2000x64_S64x16_S2000x16_1_0_0_1_n_n.rhsIdx i q 1).val = (i 1).val := by
  unfold DotDims.rhsIdx
  rw [dif_neg (show ¬(1 : Fin S64x16.rank) ∈ dot_S2000x64_S64x16_S2000x16_1_0_0_1_n_n.rhsBatch by decide), dif_pos (show (1 : Fin S64x16.rank) ∈ dot_S2000x64_S64x16_S2000x16_1_0_0_1_n_n.rhsNonContracting by decide)]
  rfl

/-- A [2000, 64] block times a [64, 16] weight, accumulated from zero, read at row `p` and column `q`: the sum over the
    64 shared channels of the products. -/
theorem product_at (x : FVec Ideal S2000x64 .bf16) (w : FVec Ideal S64x16 .bf16) (p : Fin 2000) (q : Fin 16) :
    matmul dot_S2000x64_S64x16_S2000x16_1_0_0_1_n_n none x w (constant (F := Ideal) S2000x16 .f32 0x00000000#32) (ix2 p q)
      = ∑ k : Fin 64, x (ix2 p k) * w (ix2 k q) := by
  simp only [matmul]
  rw [Ideal.matmul_constant_zero_apply, ← Equiv.sum_comp (contrEquiv1 dot_S2000x64_S64x16_S2000x16_1_0_0_1_n_n 64 rfl rfl).symm]
  refine Finset.sum_congr rfl fun k _ => ?_
  have hk := contrEquiv1_symm_val dot_S2000x64_S64x16_S2000x16_1_0_0_1_n_n 64 rfl rfl k
  have el : dot_S2000x64_S64x16_S2000x16_1_0_0_1_n_n.lhsIdx (ix2 p q) ((contrEquiv1 dot_S2000x64_S64x16_S2000x16_1_0_0_1_n_n 64 rfl rfl).symm k) = ix2 p k := funext fun a => Fin.ext (by
    match a with
    | ⟨0, _⟩ => exact lhs_row _ _
    | ⟨1, _⟩ => exact (lhs_contr _ _).trans hk)
  have er : dot_S2000x64_S64x16_S2000x16_1_0_0_1_n_n.rhsIdx (ix2 p q) ((contrEquiv1 dot_S2000x64_S64x16_S2000x16_1_0_0_1_n_n 64 rfl rfl).symm k) = ix2 k q := funext fun a => Fin.ext (by
    match a with
    | ⟨0, _⟩ => exact (rhs_contr _ _).trans hk
    | ⟨1, _⟩ => exact rhs_col _ _)
  rw [el, er]

/-- A bias of 16 channels laid out as one row and repeated down the 2000 rows of a block reads, at row `p` and column
    `q`, its channel `q`. -/
theorem bias_at (b : FVec Ideal S16 .f32) (p : Fin 2000) (q : Fin 16) :
    broadcastTo S2000x16 (shapeCast S1x16 b shapeCasts_S16_S1x16) broadcasts_S1x16_S2000x16 (ix2 p q) = b (ix1 q) := by
  rw [broadcastTo_1b_ab_apply, shapeCast_a_1a_apply]

/-- The kernel's block computation at row `p`, column `q` of a block: the three products, the two biases, grouped as the
    kernel adds them. -/
theorem payload_at (h agg e : FVec Ideal S2000x64 .f32) (wl wr we : FVec Ideal S64x16 .f32) (bl be : FVec Ideal S16 .f32)
    (p : Fin 2000) (q : Fin 16) :
    k1_pay1 (F := Ideal) h agg wl wr we e be bl (ix2 p q)
      = (((∑ k : Fin 64, agg (ix2 p k) * wl (ix2 k q)) + bl (ix1 q)) + ∑ k : Fin 64, h (ix2 p k) * wr (ix2 k q))
        + ((∑ k : Fin 64, e (ix2 p k) * we (ix2 k q)) + be (ix1 q)) := by
  unfold k1_pay1
  simp only [shapeCast_self]
  rw [addf_apply, addf_apply, addf_apply, addf_apply, product_at, product_at, product_at, bias_at, bias_at]
  rfl

/-! ## From the blocks to the array -/

theorem zeros2 : (![0, 0] : Fin 2 → Nat) = fun _ => 0 := funext fun a => by fin_cases a <;> rfl
theorem zeros1 : (![0] : Fin 1 → Nat) = fun _ => 0 := funext fun a => by fin_cases a <;> rfl

/-- The block indices over the 50 grid points: the three feature windows and the result move together, block `t` of rows at
    point `t`; the weights and biases stay on their one block. -/
theorem block_indices : ∀ t : Fin cfg1.N,
    win1_8.index t (0 : Fin 2) = t.val ∧ win1_8.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 1) = 0 :=
  (by decide +kernel : ∀ t : Fin grid1.N, _)

/-- Row `p` of the block of hidden features at point `t` is row `2000·t + p` of the array. -/
theorem hid_block (c : Dev nD) (t : Fin cfg1.N) (p : Fin 2000) (k : Fin 64) (hr : t.val * 2000 + p.val < 100000) :
    iblk1 (F := Ideal) V c 0 t (ix2 p k) = V c main_v33_0 (ix2 ⟨t.val * 2000 + p.val, hr⟩ k) := by
  obtain ⟨-, -, e0, e1, -⟩ := block_indices t
  show V c main_v33_0 (((cfg1.win 0).blk t).view.emb (ix2 p k)) = V c main_v33_0 _
  refine congrArg _ (funext fun a => Fin.ext ?_)
  match a with
  | ⟨0, _⟩ => show win1_0.index t (0 : Fin 2) * 2000 + 1 * p.val = t.val * 2000 + p.val; omega
  | ⟨1, _⟩ => show win1_0.index t (1 : Fin 2) * 64 + 1 * k.val = k.val; omega

/-- Row `p` of the block of neighbour means at point `t` is row `2000·t + p` of the array. -/
theorem agg_block (c : Dev nD) (t : Fin cfg1.N) (p : Fin 2000) (k : Fin 64) (hr : t.val * 2000 + p.val < 100000) :
    iblk1 (F := Ideal) V c 1 t (ix2 p k) = V c main_v52 (ix2 ⟨t.val * 2000 + p.val, hr⟩ k) := by
  obtain ⟨-, -, -, -, e0, e1, -⟩ := block_indices t
  show V c main_v52 (((cfg1.win 1).blk t).view.emb (ix2 p k)) = V c main_v52 _
  refine congrArg _ (funext fun a => Fin.ext ?_)
  match a with
  | ⟨0, _⟩ => show win1_1.index t (0 : Fin 2) * 2000 + 1 * p.val = t.val * 2000 + p.val; omega
  | ⟨1, _⟩ => show win1_1.index t (1 : Fin 2) * 64 + 1 * k.val = k.val; omega

/-- Row `p` of the block of embedded features at point `t` is row `2000·t + p` of the array. -/
theorem emb_block (c : Dev nD) (t : Fin cfg1.N) (p : Fin 2000) (k : Fin 64) (hr : t.val * 2000 + p.val < 100000) :
    iblk1 (F := Ideal) V c 2 t (ix2 p k) = V c main_v33_1 (ix2 ⟨t.val * 2000 + p.val, hr⟩ k) := by
  obtain ⟨-, -, -, -, -, -, e0, e1, -⟩ := block_indices t
  show V c main_v33_1 (((cfg1.win 2).blk t).view.emb (ix2 p k)) = V c main_v33_1 _
  refine congrArg _ (funext fun a => Fin.ext ?_)
  match a with
  | ⟨0, _⟩ => show win1_2.index t (0 : Fin 2) * 2000 + 1 * p.val = t.val * 2000 + p.val; omega
  | ⟨1, _⟩ => show win1_2.index t (1 : Fin 2) * 64 + 1 * k.val = k.val; omega

/-- The one block of the neighbour weight is the whole weight, at every point. -/
theorem wl_block (c : Dev nD) (t : Fin cfg1.N) (k : Fin 64) (q : Fin 16) :
    iblk1 (F := Ideal) V c 3 t (ix2 k q) = V c main_v53 (ix2 k q) := by
  obtain ⟨-, -, -, -, -, -, -, -, e0, e1, -⟩ := block_indices t
  show V c main_v53 (((cfg1.win 3).blk t).view.emb (ix2 k q)) = V c main_v53 _
  refine congrArg _ (funext fun a => Fin.ext ?_)
  match a with
  | ⟨0, _⟩ => show win1_3.index t (0 : Fin 2) * 64 + 1 * k.val = k.val; omega
  | ⟨1, _⟩ => show win1_3.index t (1 : Fin 2) * 16 + 1 * q.val = q.val; omega

/-- The one block of the neighbour bias is the whole bias, at every point. -/
theorem bl_block (c : Dev nD) (t : Fin cfg1.N) (q : Fin 16) :
    iblk1 (F := Ideal) V c 4 t (ix1 q) = V c main_arg9 (ix1 q) := by
  obtain ⟨-, -, -, -, -, -, -, -, -, -, e0, -⟩ := block_indices t
  show V c main_arg9 (((cfg1.win 4).blk t).view.emb (ix1 q)) = V c main_arg9 _
  refine congrArg _ (funext fun a => Fin.ext ?_)
  match a with
  | ⟨0, _⟩ => show win1_4.index t (0 : Fin 1) * 16 + 1 * q.val = q.val; omega

/-- The one block of the self weight is the whole weight, at every point. -/
theorem wr_block (c : Dev nD) (t : Fin cfg1.N) (k : Fin 64) (q : Fin 16) :
    iblk1 (F := Ideal) V c 5 t (ix2 k q) = V c main_v54 (ix2 k q) := by
  obtain ⟨-, -, -, -, -, -, -, -, -, -, -, e0, e1, -⟩ := block_indices t
  show V c main_v54 (((cfg1.win 5).blk t).view.emb (ix2 k q)) = V c main_v54 _
  refine congrArg _ (funext fun a => Fin.ext ?_)
  match a with
  | ⟨0, _⟩ => show win1_5.index t (0 : Fin 2) * 64 + 1 * k.val = k.val; omega
  | ⟨1, _⟩ => show win1_5.index t (1 : Fin 2) * 16 + 1 * q.val = q.val; omega

/-- The one block of the embedding weight is the whole weight, at every point. -/
theorem we_block (c : Dev nD) (t : Fin cfg1.N) (k : Fin 64) (q : Fin 16) :
    iblk1 (F := Ideal) V c 6 t (ix2 k q) = V c main_v55 (ix2 k q) := by
  obtain ⟨-, -, -, -, -, -, -, -, -, -, -, -, -, e0, e1, -⟩ := block_indices t
  show V c main_v55 (((cfg1.win 6).blk t).view.emb (ix2 k q)) = V c main_v55 _
  refine congrArg _ (funext fun a => Fin.ext ?_)
  match a with
  | ⟨0, _⟩ => show win1_6.index t (0 : Fin 2) * 64 + 1 * k.val = k.val; omega
  | ⟨1, _⟩ => show win1_6.index t (1 : Fin 2) * 16 + 1 * q.val = q.val; omega

/-- The one block of the embedding bias is the whole bias, at every point. -/
theorem be_block (c : Dev nD) (t : Fin cfg1.N) (q : Fin 16) :
    iblk1 (F := Ideal) V c 7 t (ix1 q) = V c main_arg12 (ix1 q) := by
  obtain ⟨-, -, -, -, -, -, -, -, -, -, -, -, -, -, -, e0⟩ := block_indices t
  show V c main_arg12 (((cfg1.win 7).blk t).view.emb (ix1 q)) = V c main_arg12 _
  refine congrArg _ (funext fun a => Fin.ext ?_)
  match a with
  | ⟨0, _⟩ => show win1_7.index t (0 : Fin 1) * 16 + 1 * q.val = q.val; omega

/-- What point `t` writes back is block `t` of the second layer's formula of the arrays found at entry. -/
theorem written_block (c : Dev nD) (t : Fin cfg1.N) :
    (dat1 (F := Ideal) V c).flushed 8 t
      = ((cfg1.win 8).blk t).view.read (Elt Ideal) (Cert.Sage.out1 (V c main_v33_0) (V c main_v52) (V c main_v33_1) (V c main_v53) (V c main_v54) (V c main_v55)
          (V c main_arg9) (V c main_arg12)) := by
  show (cfg1.win 8).cut (grid1.coords t) ((dat1 V c).after 8 t) = _
  rw [after1_8]
  unfold out1_8
  rw [View.canon_unit_zero zeros2]
  simp only [View.ld_unit_zero (S := S2000x64) zeros2, View.ld_unit_zero (S := S64x16) zeros2, View.ld_unit_zero (S := S16) zeros1]
  funext j
  obtain ⟨p, q, rfl⟩ : ∃ (p : Fin 2000) (q : Fin 16), j = ix2 p q := ⟨j 0, j 1, eq_ix2 j⟩
  obtain ⟨e0, e1, -⟩ := block_indices t
  have ht : t.val < 50 := N_1 ▸ t.isLt
  have hr : t.val * 2000 + p.val < 100000 := by have := p.isLt; omega
  have hrow : ((cfg1.win 8).blk t).view.emb (ix2 p q) = ix2 (⟨t.val * 2000 + p.val, hr⟩ : Fin 100000) q :=
    funext fun a => Fin.ext (by
      match a with
      | ⟨0, _⟩ => show win1_8.index t (0 : Fin 2) * 2000 + 1 * p.val = t.val * 2000 + p.val; omega
      | ⟨1, _⟩ => show win1_8.index t (1 : Fin 2) * 16 + 1 * q.val = q.val; omega)
  show k1_pay1 (F := Ideal) (iblk1 V c 0 t) (iblk1 V c 1 t) (iblk1 V c 3 t) (iblk1 V c 5 t) (iblk1 V c 6 t) (iblk1 V c 2 t) (iblk1 V c 7 t) (iblk1 V c 4 t) (ix2 p q)
    = Cert.Sage.out1 (V c main_v33_0) (V c main_v52) (V c main_v33_1) (V c main_v53) (V c main_v54) (V c main_v55) (V c main_arg9) (V c main_arg12) (((cfg1.win 8).blk t).view.emb (ix2 p q))
  rw [hrow, Cert.Sage.out1_ix]
  refine (payload_at _ _ _ _ _ _ _ _ p q).trans ?_
  unfold Cert.Sage.out1At
  simp only [hid_block V c t _ _ hr, agg_block V c t _ _ hr, emb_block V c t _ _ hr, wl_block V c t, bl_block V c t, wr_block V c t,
    we_block V c t, be_block V c t]

/-- An index of the result is in point `t`'s block iff each coordinate is in the block's range on its axis. -/
theorem mem_block (t : Fin cfg1.N) (i : S100000x16.Idx) :
    i ∈ ((cfg1.win 8).blk t).view.set ↔ ∀ a : Fin 2, win1_8.index t a * S2000x16.size a ≤ (i a).val ∧ (i a).val < win1_8.index t a * S2000x16.size a + S2000x16.size a := by
  show i ∈ ((View.whole main_v56).slice (win1_8.rect t)).set ↔ _
  rw [View.set_slice_whole, Rect.mem_set_unit]
  exact Iff.rfl

/-- Every row `r` of the result lies in the block of point `r / 2000`, which is written back. -/
theorem rows_covered (i : S100000x16.Idx) :
    ∃ t : Fin cfg1.N, (cfg1.win 8).flush t = true ∧ i ∈ ((cfg1.win 8).blk t).view.set := by
  have hi0 : (i 0).val < 100000 := idx2_lt0 i
  have hi1 : (i 1).val < 16 := idx2_lt1 i
  obtain ⟨t, ht⟩ : ∃ t : Fin cfg1.N, t.val = (i 0).val / 2000 := ⟨⟨(i 0).val / 2000, by rw [show cfg1.N = 50 from N_1]; omega⟩, rfl⟩
  obtain ⟨e0, e1, -⟩ := block_indices t
  refine ⟨t, flush1_8 t, ?_⟩
  rw [mem_block]
  intro a
  match a with
  | ⟨0, _⟩ => show win1_8.index t (0 : Fin 2) * 2000 ≤ (i 0).val ∧ (i 0).val < win1_8.index t (0 : Fin 2) * 2000 + 2000; omega
  | ⟨1, _⟩ => show win1_8.index t (1 : Fin 2) * 16 ≤ (i 1).val ∧ (i 1).val < win1_8.index t (1 : Fin 2) * 16 + 16; omega

/-- After region 1 the result array holds the second layer's formula of the arrays the region found at entry. -/
theorem out_eq (c : Dev nD) :
    (dat1 (F := Ideal) V c).arrAt 8 cfg1.N
      = Cert.Sage.out1 (V c main_v33_0) (V c main_v52) (V c main_v33_1) (V c main_v53) (V c main_v54) (V c main_v55)
          (V c main_arg9) (V c main_arg12) :=
  (dat1 (F := Ideal) V c).arrAt_eq_of_cover 8 _ (fun t _ => written_block V c t) (rows_covered)

end Cert.KernelIdeal.Region1

end
-- ==== Proof.KernelValue.lean ====
/-
  The kernel program's result as one term of its arguments. Around and between the two regions @main runs host
  operations; each buffer a region stages is read here as a named function (proof/Proof/KernelHost.lean) of the launch
  contents, through the boundary contents the run's frame keeps: a stretch of host operations rewrites its own result
  buffers and no other, a region rewrites its output arrays and no other. The result buffer is then the second layer's
  formula of the first layer's outputs.
-/
import proofs.«142642_j87917980549692_1_alg».proof.Proof.KernelRun
import proofs.«142642_j87917980549692_1_alg».proof.Proof.KernelHost
import proofs.«142642_j87917980549692_1_alg».proof.Proof.Region0Value
import proofs.«142642_j87917980549692_1_alg».proof.Proof.Region1Value
import Idealize.ShloMosaic.Lib.StableHlo.Run

set_option maxRecDepth 16384

noncomputable section

namespace Cert.KernelIdeal.KValue

open Cert.KernelIdeal Cert.KernelIdeal.Gen Cert.KernelIdeal.KHost
open Idealize.ShloMosaic Idealize.ShloMosaic.TcCoe Idealize.SL.Sem Idealize.ShloMosaic.StableHlo

/-! ## The first stretch of host operations, from any contents -/

section Stretch0
variable (Wv : Valuation τ sig (Elt Ideal))

theorem ops0_arg0 : after hostOps0 Wv (Proc.devRef .tc main_arg0) = Wv (Proc.devRef .tc main_arg0) := by
  after_results_simp <;> rfl
theorem ops0_arg4 : after hostOps0 Wv (Proc.devRef .tc main_arg4) = Wv (Proc.devRef .tc main_arg4) := by
  after_results_simp <;> rfl
theorem ops0_arg7 : after hostOps0 Wv (Proc.devRef .tc main_arg7) = Wv (Proc.devRef .tc main_arg7) := by
  after_results_simp <;> rfl
theorem ops0_arg8 : after hostOps0 Wv (Proc.devRef .tc main_arg8) = Wv (Proc.devRef .tc main_arg8) := by
  after_results_simp <;> rfl
theorem ops0_arg9 : after hostOps0 Wv (Proc.devRef .tc main_arg9) = Wv (Proc.devRef .tc main_arg9) := by
  after_results_simp <;> rfl
theorem ops0_arg10 : after hostOps0 Wv (Proc.devRef .tc main_arg10) = Wv (Proc.devRef .tc main_arg10) := by
  after_results_simp <;> rfl
theorem ops0_arg11 : after hostOps0 Wv (Proc.devRef .tc main_arg11) = Wv (Proc.devRef .tc main_arg11) := by
  after_results_simp <;> rfl
theorem ops0_arg12 : after hostOps0 Wv (Proc.devRef .tc main_arg12) = Wv (Proc.devRef .tc main_arg12) := by
  after_results_simp <;> rfl
theorem ops0_v1 : after hostOps0 Wv (Proc.devRef .tc main_v1) = srcOf (Wv (Proc.devRef .tc main_arg2)) := by
  after_results_simp <;> rfl
theorem ops0_v3 : after hostOps0 Wv (Proc.devRef .tc main_v3) = dstOf (Wv (Proc.devRef .tc main_arg2)) := by
  after_results_simp <;> rfl
theorem ops0_v22 : after hostOps0 Wv (Proc.devRef .tc main_v22)
    = agg128 (Wv (Proc.devRef .tc main_arg0)) (srcOf (Wv (Proc.devRef .tc main_arg2))) (dstOf (Wv (Proc.devRef .tc main_arg2))) := by
  after_results_simp <;> rfl
theorem ops0_v29 : after hostOps0 Wv (Proc.devRef .tc main_v29) = erawOf (Wv (Proc.devRef .tc main_arg1)) := by
  after_results_simp <;> rfl
theorem ops0_v30 : after hostOps0 Wv (Proc.devRef .tc main_v30)
    = transpose S128x64 [1, 0] (Wv (Proc.devRef .tc main_arg3)) transposes_S64x128_S128x64_1_0 := by
  after_results_simp <;> rfl
theorem ops0_v31 : after hostOps0 Wv (Proc.devRef .tc main_v31)
    = transpose S128x64 [1, 0] (Wv (Proc.devRef .tc main_arg5)) transposes_S64x128_S128x64_1_0 := by
  after_results_simp <;> rfl
theorem ops0_v32 : after hostOps0 Wv (Proc.devRef .tc main_v32)
    = transpose S64x64 [1, 0] (Wv (Proc.devRef .tc main_arg6)) transposes_S64x64_S64x64_1_0 := by
  after_results_simp <;> rfl

end Stretch0

/-! ## The second stretch, from any contents -/

section Stretch1
variable (Wv : Valuation τ sig (Elt Ideal))

theorem ops1_v33_0 : after hostOps1 Wv (Proc.devRef .tc main_v33_0) = Wv (Proc.devRef .tc main_v33_0) := by
  after_results_simp <;> rfl
theorem ops1_v33_1 : after hostOps1 Wv (Proc.devRef .tc main_v33_1) = Wv (Proc.devRef .tc main_v33_1) := by
  after_results_simp <;> rfl
theorem ops1_arg9 : after hostOps1 Wv (Proc.devRef .tc main_arg9) = Wv (Proc.devRef .tc main_arg9) := by
  after_results_simp <;> rfl
theorem ops1_arg12 : after hostOps1 Wv (Proc.devRef .tc main_arg12) = Wv (Proc.devRef .tc main_arg12) := by
  after_results_simp <;> rfl
theorem ops1_v52 : after hostOps1 Wv (Proc.devRef .tc main_v52)
    = agg64 (Wv (Proc.devRef .tc main_v33_0)) (Wv (Proc.devRef .tc main_v1)) (Wv (Proc.devRef .tc main_v3)) := by
  after_results_simp <;> rfl
theorem ops1_v53 : after hostOps1 Wv (Proc.devRef .tc main_v53)
    = transpose S64x16 [1, 0] (Wv (Proc.devRef .tc main_arg8)) transposes_S16x64_S64x16_1_0 := by
  after_results_simp <;> rfl
theorem ops1_v54 : after hostOps1 Wv (Proc.devRef .tc main_v54)
    = transpose S64x16 [1, 0] (Wv (Proc.devRef .tc main_arg10)) transposes_S16x64_S64x16_1_0 := by
  after_results_simp <;> rfl
theorem ops1_v55 : after hostOps1 Wv (Proc.devRef .tc main_v55)
    = transpose S64x16 [1, 0] (Wv (Proc.devRef .tc main_arg11)) transposes_S16x64_S64x16_1_0 := by
  after_results_simp <;> rfl

end Stretch1

/-! ## The boundary contents, buffer by buffer -/

variable (m : (ℓ : Loc nD τ sig) → Buf (Elt Ideal) ℓ) (ρ : Dev nD → PrngReg)

/-- At region 0's entry an argument still holds its launch contents. -/
theorem v1_arg0 (c : Dev nD) : V1 m ρ c main_arg0 = m ((c : Thread nD τ).loc main_arg0) := ops0_arg0 (W0 m ρ c)
theorem v1_arg4 (c : Dev nD) : V1 m ρ c main_arg4 = m ((c : Thread nD τ).loc main_arg4) := ops0_arg4 (W0 m ρ c)
theorem v1_arg7 (c : Dev nD) : V1 m ρ c main_arg7 = m ((c : Thread nD τ).loc main_arg7) := ops0_arg7 (W0 m ρ c)
theorem v1_v22 (c : Dev nD) : V1 m ρ c main_v22
    = agg128 (m ((c : Thread nD τ).loc main_arg0)) (srcOf (m ((c : Thread nD τ).loc main_arg2))) (dstOf (m ((c : Thread nD τ).loc main_arg2))) := ops0_v22 (W0 m ρ c)
theorem v1_v29 (c : Dev nD) : V1 m ρ c main_v29 = erawOf (m ((c : Thread nD τ).loc main_arg1)) := ops0_v29 (W0 m ρ c)
theorem v1_v30 (c : Dev nD) : V1 m ρ c main_v30 = transpose S128x64 [1, 0] (m ((c : Thread nD τ).loc main_arg3)) transposes_S64x128_S128x64_1_0 := ops0_v30 (W0 m ρ c)
theorem v1_v31 (c : Dev nD) : V1 m ρ c main_v31 = transpose S128x64 [1, 0] (m ((c : Thread nD τ).loc main_arg5)) transposes_S64x128_S128x64_1_0 := ops0_v31 (W0 m ρ c)
theorem v1_v32 (c : Dev nD) : V1 m ρ c main_v32 = transpose S64x64 [1, 0] (m ((c : Thread nD τ).loc main_arg6)) transposes_S64x64_S64x64_1_0 := ops0_v32 (W0 m ρ c)

/-- At region 0's exit its first output holds the first layer's hidden features of the arguments. -/
theorem w2_hid (c : Dev nD) : W2 m ρ c (Proc.devRef .tc main_v33_0)
    = hidOf (erawOf (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W2_arr m ρ c 8).trans ?_
  rw [Cert.KernelIdeal.Region0.hid_eq (V1 m ρ) c, v1_arg0, v1_v22, v1_v29, v1_v30, v1_v31, v1_v32, v1_arg4, v1_arg7]
  rfl

/-- At region 0's exit its second output holds the first layer's embedding branch of the arguments. -/
theorem w2_emb (c : Dev nD) : W2 m ρ c (Proc.devRef .tc main_v33_1)
    = embOf (erawOf (m ((c : Thread nD τ).loc main_arg1))) (m ((c : Thread nD τ).loc main_arg6)) (m ((c : Thread nD τ).loc main_arg7)) := by
  refine (W2_arr m ρ c 9).trans ?_
  rw [Cert.KernelIdeal.Region0.emb_eq (V1 m ρ) c, v1_v29, v1_v32, v1_arg7]
  rfl

/-- Region 0 writes neither the edge rows nor an argument of the second layer. -/
theorem w2_v1 (c : Dev nD) : W2 m ρ c (Proc.devRef .tc main_v1) = srcOf (m ((c : Thread nD τ).loc main_arg2)) :=
  (W2_of_ne m ρ c main_v1 (by decide)).trans (ops0_v1 (W0 m ρ c))
theorem w2_v3 (c : Dev nD) : W2 m ρ c (Proc.devRef .tc main_v3) = dstOf (m ((c : Thread nD τ).loc main_arg2)) :=
  (W2_of_ne m ρ c main_v3 (by decide)).trans (ops0_v3 (W0 m ρ c))
theorem w2_arg8 (c : Dev nD) : W2 m ρ c (Proc.devRef .tc main_arg8) = m ((c : Thread nD τ).loc main_arg8) :=
  (W2_of_ne m ρ c main_arg8 (by decide)).trans (ops0_arg8 (W0 m ρ c))
theorem w2_arg9 (c : Dev nD) : W2 m ρ c (Proc.devRef .tc main_arg9) = m ((c : Thread nD τ).loc main_arg9) :=
  (W2_of_ne m ρ c main_arg9 (by decide)).trans (ops0_arg9 (W0 m ρ c))
theorem w2_arg10 (c : Dev nD) : W2 m ρ c (Proc.devRef .tc main_arg10) = m ((c : Thread nD τ).loc main_arg10) :=
  (W2_of_ne m ρ c main_arg10 (by decide)).trans (ops0_arg10 (W0 m ρ c))
theorem w2_arg11 (c : Dev nD) : W2 m ρ c (Proc.devRef .tc main_arg11) = m ((c : Thread nD τ).loc main_arg11) :=
  (W2_of_ne m ρ c main_arg11 (by decide)).trans (ops0_arg11 (W0 m ρ c))
theorem w2_arg12 (c : Dev nD) : W2 m ρ c (Proc.devRef .tc main_arg12) = m ((c : Thread nD τ).loc main_arg12) :=
  (W2_of_ne m ρ c main_arg12 (by decide)).trans (ops0_arg12 (W0 m ρ c))

/-- At region 1's entry, buffer by buffer. -/
theorem v3_v33_0 (c : Dev nD) : V3 m ρ c main_v33_0
    = hidOf (erawOf (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (ops1_v33_0 (W2 m ρ c)).trans (w2_hid m ρ c)
theorem v3_v33_1 (c : Dev nD) : V3 m ρ c main_v33_1 = embOf (erawOf (m ((c : Thread nD τ).loc main_arg1))) (m ((c : Thread nD τ).loc main_arg6)) (m ((c : Thread nD τ).loc main_arg7)) :=
  (ops1_v33_1 (W2 m ρ c)).trans (w2_emb m ρ c)
theorem v3_v52 (c : Dev nD) : V3 m ρ c main_v52
    = agg64 (hidOf (erawOf (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
        (srcOf (m ((c : Thread nD τ).loc main_arg2))) (dstOf (m ((c : Thread nD τ).loc main_arg2))) := by
  refine (ops1_v52 (W2 m ρ c)).trans ?_
  rw [w2_hid, w2_v1, w2_v3]
theorem v3_v53 (c : Dev nD) : V3 m ρ c main_v53 = transpose S64x16 [1, 0] (m ((c : Thread nD τ).loc main_arg8)) transposes_S16x64_S64x16_1_0 := by
  refine (ops1_v53 (W2 m ρ c)).trans ?_
  rw [w2_arg8]
theorem v3_v54 (c : Dev nD) : V3 m ρ c main_v54 = transpose S64x16 [1, 0] (m ((c : Thread nD τ).loc main_arg10)) transposes_S16x64_S64x16_1_0 := by
  refine (ops1_v54 (W2 m ρ c)).trans ?_
  rw [w2_arg10]
theorem v3_v55 (c : Dev nD) : V3 m ρ c main_v55 = transpose S64x16 [1, 0] (m ((c : Thread nD τ).loc main_arg11)) transposes_S16x64_S64x16_1_0 := by
  refine (ops1_v55 (W2 m ρ c)).trans ?_
  rw [w2_arg11]
theorem v3_arg9 (c : Dev nD) : V3 m ρ c main_arg9 = m ((c : Thread nD τ).loc main_arg9) :=
  (ops1_arg9 (W2 m ρ c)).trans (w2_arg9 m ρ c)
theorem v3_arg12 (c : Dev nD) : V3 m ρ c main_arg12 = m ((c : Thread nD τ).loc main_arg12) :=
  (ops1_arg12 (W2 m ρ c)).trans (w2_arg12 m ρ c)

/-- THE RESULT: at the last boundary the result buffer holds the whole network of the launch contents. -/
theorem result_eq (c : Dev nD) : W4 m ρ c (Proc.devRef .tc main_v56)
    = resultOf (erawOf (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W4_arr m ρ c 8).trans ?_
  rw [Cert.KernelIdeal.Region1.out_eq (V3 m ρ) c, v3_v33_0, v3_v52, v3_v33_1, v3_v53, v3_v54, v3_v55, v3_arg9, v3_arg12]
  rfl

end Cert.KernelIdeal.KValue

end
-- ==== Proof.RefHost.lean ====
/-
  The host-side functions of the reference program, named: the source and destination rows of the edge list, the
  neighbour mean (a gather of the source rows, a scatter-add onto the destination rows, divided by the in-degree clipped
  below at one), the mean of the two embedding slots, and the whole network as the two layers' formulas over them.
-/
import proofs.«142642_j87917980549692_1_alg».proof.Proof.Gen.ReferenceIdeal
import proofs.«142642_j87917980549692_1_alg».proof.Proof.Spec

noncomputable section

namespace Cert.ReferenceIdeal.RHost

open Cert.ReferenceIdeal Cert.ReferenceIdeal.Gen Idealize.ShloMosaic

abbrev CI (S : Shape) := (⟨S, .i32⟩ : BufTy).Contents (Elt Ideal)
abbrev CF (S : Shape) := (⟨S, .f32⟩ : BufTy).Contents (Elt Ideal)

/-- Row 0 of the edge list: the source node of each edge. -/
def srcOf (e : CI S2x1600000) : CI S1600000 :=
  shapeCast S1600000 (extractStridedSlice S1x1600000 ![0, 0] e slices_S2x1600000_S1x1600000_0_0) shapeCasts_S1x1600000_S1600000

/-- Row 1 of the edge list: the destination node of each edge. -/
def dstOf (e : CI S2x1600000) : CI S1600000 :=
  shapeCast S1600000 (extractStridedSlice S1x1600000 ![1, 0] e slices_S2x1600000_S1x1600000_1_0) shapeCasts_S1x1600000_S1600000

/-- The gather's start indices: a negative source index counts from the end. -/
def wrapIdx (src : CI S1600000) : CI S1600000x1 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The in-degree of each node, clipped below at one. -/
def degOf (dst : CI S1600000) : CF S100000 :=
  maximumf
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 dst)
      (broadcastInDim S1600000 ![] bcast_S_S1600000 (constant (F := Ideal) S_ .f32 0x3F800000#32)))
    (broadcastInDim S100000 ![] bcast_S_S100000 (constant (F := Ideal) S_ .f32 0x3F800000#32))

/-- The neighbour mean of width-128 features. -/
def agg128 (x : CF S100000x128) (src dst : CI S1600000) : CF S100000x128 :=
  Host.divf
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128 x (wrapIdx src)))
    (broadcastInDim S100000x128 ![0, 1] bcast_S100000x1_S100000x128_0_1
      (broadcastInDim S100000x1 ![0] bcast_S100000_S100000x1_0 (degOf dst)))

/-- The neighbour mean of width-64 features. -/
def agg64 (h : CF S100000x64) (src dst : CI S1600000) : CF S100000x64 :=
  Host.divf
    (Host.scatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dst)
      (Host.gather gather_S100000x64_S1600000x1_S1600000x64_1_0_n_n_0_1_164 h (wrapIdx src)))
    (broadcastInDim S100000x64 ![0, 1] bcast_S100000x1_S100000x64_0_1
      (broadcastInDim S100000x1 ![0] bcast_S100000_S100000x1_0 (degOf dst)))

/-- The mean of the two embedding slots of each node: their sum from zero, divided by two. -/
def erawOf (x1 : CF S100000x2x64) : CF S100000x64 :=
  Host.divf (Host.reduceAdd x1 (constant (F := Ideal) S_ .f32 0x00000000#32) reducesTo_S100000x2x64_S100000x64_d1 h_S_)
    (broadcastInDim S100000x64 ![] bcast_S_S100000x64 (constant (F := Ideal) S_ .f32 0x40000000#32))

/-- The first layer's hidden features over a given embedding mean `er`. -/
def hidOf (er : CF S100000x64) (x0 : CF S100000x128) (e : CI S2x1600000) (x3 : CF S64x128) (x4 : CF S64) (x5 : CF S64x128)
    (x6 : CF S64x64) (x7 : CF S64) : CF S100000x64 :=
  Cert.Sage.hid0 x0 (agg128 x0 (srcOf e) (dstOf e)) er (transpose S128x64 [1, 0] x3 transposes_S64x128_S128x64_1_0)
    (transpose S128x64 [1, 0] x5 transposes_S64x128_S128x64_1_0) (transpose S64x64 [1, 0] x6 transposes_S64x64_S64x64_1_0) x4 x7

/-- The first layer's embedding branch over a given embedding mean `er`. -/
def embOf (er : CF S100000x64) (x6 : CF S64x64) (x7 : CF S64) : CF S100000x64 :=
  Cert.Sage.emb0 er (transpose S64x64 [1, 0] x6 transposes_S64x64_S64x64_1_0) x7

/-- The whole network over a given embedding mean `er`: the second layer's formula of the first layer's two outputs and
    of the neighbour mean of its hidden features. -/
def resultOf (er : CF S100000x64) (x0 : CF S100000x128) (e : CI S2x1600000) (x3 : CF S64x128) (x4 : CF S64) (x5 : CF S64x128)
    (x6 : CF S64x64) (x7 : CF S64) (x8 : CF S16x64) (x9 : CF S16) (x10 x11 : CF S16x64) (x12 : CF S16) : CF S100000x16 :=
  Cert.Sage.out1 (hidOf er x0 e x3 x4 x5 x6 x7) (agg64 (hidOf er x0 e x3 x4 x5 x6 x7) (srcOf e) (dstOf e)) (embOf er x6 x7)
    (transpose S64x16 [1, 0] x8 transposes_S16x64_S64x16_1_0) (transpose S64x16 [1, 0] x10 transposes_S16x64_S64x16_1_0)
    (transpose S64x16 [1, 0] x11 transposes_S16x64_S64x16_1_0) x9 x12

end Cert.ReferenceIdeal.RHost

end
-- ==== Proof.RefValue.lean ====
/-
  The reference's three dense stages read at an index: a host `dot_general` contracting one axis is the sum over that
  axis, a bias broadcast along the rows reads the bias at the column, and the stages' additions are grouped exactly as
  `Cert.Sage.emb0At`, `hid0At` and `out1At` group them.
-/
import proofs.«142642_j87917980549692_1_alg».proof.Proof.Gen.ReferenceIdeal.Run
import proofs.«142642_j87917980549692_1_alg».proof.Proof.Gen.ReferenceIdeal.Read
import proofs.«142642_j87917980549692_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefValue

open Cert.ReferenceIdeal Cert.ReferenceIdeal.Gen
open Idealize.ShloMosaic Idealize.ShloMosaic.TcCoe Idealize.SL.Sem Idealize.ShloMosaic.ValueIdx

/-- The 64-by-64 product at node `p`, channel `q`: row `p` of the left operand against column `q` of the right. -/
theorem dot64x64_apply (l : FVec Ideal S100000x64 .f32) (r : FVec Ideal S64x64 .f32) (p : Fin 100000) (q : Fin 64) :
    Host.dotGeneral (F := Ideal) dot_S100000x64_S64x64_S100000x64_1_0_0_1_n_n none l r (ix2 p q) = ∑ k : Fin 64, l (ix2 p k) * r (ix2 k q) := by
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx (ix2 p q) ((ValueIdx.contrEquiv1 dot_S100000x64_S64x64_S100000x64_1_0_0_1_n_n 64 rfl rfl).symm k) = ix2 p k :=
    funext fun a => Fin.ext (by
      match a with
      | ⟨0, _⟩ => exact Read.lhs_main_v35_0 _ _
      | ⟨1, _⟩ => exact (Read.lhs_main_v35_1 _ _).trans hk)
  have er : dot_S100000x64_S64x64_S100000x64_1_0_0_1_n_n.rhsIdx (ix2 p q) ((ValueIdx.contrEquiv1 dot_S100000x64_S64x64_S100000x64_1_0_0_1_n_n 64 rfl rfl).symm k) = ix2 k q :=
    funext fun a => Fin.ext (by
      match a with
      | ⟨0, _⟩ => exact (Read.rhs_main_v35_0 _ _).trans hk
      | ⟨1, _⟩ => exact Read.rhs_main_v35_1 _ _)
  rw [el, er]

/-- The 128-by-64 product at node `p`, channel `q`: row `p` of the left operand against column `q` of the right. -/
theorem dot128x64_apply (l : FVec Ideal S100000x128 .f32) (r : FVec Ideal S128x64 .f32) (p : Fin 100000) (q : Fin 64) :
    Host.dotGeneral (F := Ideal) dot_S100000x128_S128x64_S100000x64_1_0_0_1_n_n none l r (ix2 p q) = ∑ k : Fin 128, l (ix2 p k) * r (ix2 k q) := by
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx (ix2 p q) ((ValueIdx.contrEquiv1 dot_S100000x128_S128x64_S100000x64_1_0_0_1_n_n 128 rfl rfl).symm k) = ix2 p k :=
    funext fun a => Fin.ext (by
      match a with
      | ⟨0, _⟩ => exact Read.lhs_main_v27_0 _ _
      | ⟨1, _⟩ => exact (Read.lhs_main_v27_1 _ _).trans hk)
  have er : dot_S100000x128_S128x64_S100000x64_1_0_0_1_n_n.rhsIdx (ix2 p q) ((ValueIdx.contrEquiv1 dot_S100000x128_S128x64_S100000x64_1_0_0_1_n_n 128 rfl rfl).symm k) = ix2 k q :=
    funext fun a => Fin.ext (by
      match a with
      | ⟨0, _⟩ => exact (Read.rhs_main_v27_0 _ _).trans hk
      | ⟨1, _⟩ => exact Read.rhs_main_v27_1 _ _)
  rw [el, er]

/-- The 64-by-16 product at node `p`, channel `q`: row `p` of the left operand against column `q` of the right. -/
theorem dot64x16_apply (l : FVec Ideal S100000x64 .f32) (r : FVec Ideal S64x16 .f32) (p : Fin 100000) (q : Fin 16) :
    Host.dotGeneral (F := Ideal) dot_S100000x64_S64x16_S100000x16_1_0_0_1_n_n none l r (ix2 p q) = ∑ k : Fin 64, l (ix2 p k) * r (ix2 k q) := by
  simp only [Host.dotGeneral]
  rw [Ideal.dotGeneral_apply, ← Equiv.sum_comp (ValueIdx.contrEquiv1 dot_S100000x64_S64x16_S100000x16_1_0_0_1_n_n 64 rfl rfl).symm]
  refine Finset.sum_congr rfl fun k _ => ?_
  have hk := ValueIdx.contrEquiv1_symm_val dot_S100000x64_S64x16_S100000x16_1_0_0_1_n_n 64 rfl rfl k
  have el : dot_S100000x64_S64x16_S100000x16_1_0_0_1_n_n.lhsIdx (ix2 p q) ((ValueIdx.contrEquiv1 dot_S100000x64_S64x16_S100000x16_1_0_0_1_n_n 64 rfl rfl).symm k) = ix2 p k :=
    funext fun a => Fin.ext (by
      match a with
      | ⟨0, _⟩ => exact Read.lhs_main_v65_0 _ _
      | ⟨1, _⟩ => exact (Read.lhs_main_v65_1 _ _).trans hk)
  have er : dot_S100000x64_S64x16_S100000x16_1_0_0_1_n_n.rhsIdx (ix2 p q) ((ValueIdx.contrEquiv1 dot_S100000x64_S64x16_S100000x16_1_0_0_1_n_n 64 rfl rfl).symm k) = ix2 k q :=
    funext fun a => Fin.ext (by
      match a with
      | ⟨0, _⟩ => exact (Read.rhs_main_v65_0 _ _).trans hk
      | ⟨1, _⟩ => exact Read.rhs_main_v65_1 _ _)
  rw [el, er]

/-- A bias of 64 channels repeated along the rows reads, at node `p` and channel `q`, the bias at `q`. -/
theorem bias64_apply (b : FVec Ideal S64 .f32) (p : Fin 100000) (q : Fin 64) :
    broadcastInDim S100000x64 ![0, 1] bcast_S1x64_S100000x64_0_1 (broadcastInDim S1x64 ![1] bcast_S64_S1x64_1 b) (ix2 p q)
      = b (ix1 q) := by
  generalize hy : broadcastInDim S1x64 ![1] bcast_S64_S1x64_1 b = y
  have hrow : broadcastInDim S100000x64 ![0, 1] bcast_S1x64_S100000x64_0_1 y (ix2 p q) = y (ix2 (0 : Fin 1) q) :=
    broadcastInDim_apply _ bcast_S1x64_S100000x64_0_1 y (ix2 p q) (ix2 (0 : Fin 1) q) (fun a => match a with
      | ⟨0, _⟩ => by show 0 = if (1 : Nat) = 1 then 0 else p.val; rw [if_pos rfl]
      | ⟨1, _⟩ => by show q.val = if (64 : Nat) = 1 then 0 else q.val; rw [if_neg (by decide)])
  rw [hrow, ← hy]
  exact broadcastInDim_apply _ bcast_S64_S1x64_1 b (ix2 (0 : Fin 1) q) (ix1 q) (fun a => match a with
    | ⟨0, _⟩ => by show q.val = if (64 : Nat) = 1 then 0 else q.val; rw [if_neg (by decide)])

/-- A bias of 16 channels repeated along the rows reads, at node `p` and channel `q`, the bias at `q`. -/
theorem bias16_apply (b : FVec Ideal S16 .f32) (p : Fin 100000) (q : Fin 16) :
    broadcastInDim S100000x16 ![0, 1] bcast_S1x16_S100000x16_0_1 (broadcastInDim S1x16 ![1] bcast_S16_S1x16_1 b) (ix2 p q)
      = b (ix1 q) := by
  generalize hy : broadcastInDim S1x16 ![1] bcast_S16_S1x16_1 b = y
  have hrow : broadcastInDim S100000x16 ![0, 1] bcast_S1x16_S100000x16_0_1 y (ix2 p q) = y (ix2 (0 : Fin 1) q) :=
    broadcastInDim_apply _ bcast_S1x16_S100000x16_0_1 y (ix2 p q) (ix2 (0 : Fin 1) q) (fun a => match a with
      | ⟨0, _⟩ => by show 0 = if (1 : Nat) = 1 then 0 else p.val; rw [if_pos rfl]
      | ⟨1, _⟩ => by show q.val = if (16 : Nat) = 1 then 0 else q.val; rw [if_neg (by decide)])
  rw [hrow, ← hy]
  exact broadcastInDim_apply _ bcast_S16_S1x16_1 b (ix2 (0 : Fin 1) q) (ix1 q) (fun a => match a with
    | ⟨0, _⟩ => by show q.val = if (16 : Nat) = 1 then 0 else q.val; rw [if_neg (by decide)])

/-- The zero scalar repeated over the whole array reads zero everywhere. -/
theorem zero64_apply (p : Fin 100000) (q : Fin 64) :
    broadcastInDim S100000x64 ![] bcast_S_S100000x64 (constant (F := Ideal) S_ .f32 0x00000000#32) (ix2 p q) = (0 : EReal) := by
  generalize hy : constant (F := Ideal) S_ .f32 0x00000000#32 = y
  have hz : broadcastInDim S100000x64 ![] bcast_S_S100000x64 y (ix2 p q) = y ix0 :=
    broadcastInDim_apply _ bcast_S_S100000x64 y (ix2 p q) ix0 (fun a => a.elim0)
  rw [hz, ← hy, constant_apply, Ideal.ofBits_zero_f32]

/-- The embedding branch of layer 0 as the reference computes it. -/
theorem ref_emb0 (eraw : FVec Ideal S100000x64 .f32) (weT : FVec Ideal S64x64 .f32) (be : FVec Ideal S64 .f32) :
    addf (Host.dotGeneral dot_S100000x64_S64x64_S100000x64_1_0_0_1_n_n none eraw weT)
        (broadcastInDim S100000x64 ![0, 1] bcast_S1x64_S100000x64_0_1 (broadcastInDim S1x64 ![1] bcast_S64_S1x64_1 be))
      = Cert.Sage.emb0 eraw weT be := by
  funext i
  obtain ⟨p, q, rfl⟩ : ∃ (p : Fin 100000) (q : Fin 64), i = ix2 p q :=
    ⟨⟨(i 0).val, idx2_lt0 i⟩, ⟨(i 1).val, idx2_lt1 i⟩, eq_ix2 i⟩
  rw [Cert.Sage.emb0_ix, addf_apply, dot64x64_apply, bias64_apply]
  rfl

/-- The hidden features of layer 0 as the reference computes them, over its embedding branch `e`. -/
theorem ref_hid0 (x agg : FVec Ideal S100000x128 .f32) (eraw : FVec Ideal S100000x64 .f32) (wlT wrT : FVec Ideal S128x64 .f32)
    (weT : FVec Ideal S64x64 .f32) (bl be : FVec Ideal S64 .f32) :
    maximumf
        (addf
          (addf
            (addf (Host.dotGeneral dot_S100000x128_S128x64_S100000x64_1_0_0_1_n_n none agg wlT)
              (broadcastInDim S100000x64 ![0, 1] bcast_S1x64_S100000x64_0_1 (broadcastInDim S1x64 ![1] bcast_S64_S1x64_1 bl)))
            (Host.dotGeneral dot_S100000x128_S128x64_S100000x64_1_0_0_1_n_n none x wrT))
          (Cert.Sage.emb0 eraw weT be))
        (broadcastInDim S100000x64 ![] bcast_S_S100000x64 (constant S_ .f32 0x00000000#32))
      = Cert.Sage.hid0 x agg eraw wlT wrT weT bl be := by
  funext i
  obtain ⟨p, q, rfl⟩ : ∃ (p : Fin 100000) (q : Fin 64), i = ix2 p q :=
    ⟨⟨(i 0).val, idx2_lt0 i⟩, ⟨(i 1).val, idx2_lt1 i⟩, eq_ix2 i⟩
  rw [Cert.Sage.hid0_ix, maximumf_apply, addf_apply, addf_apply, addf_apply, dot128x64_apply, dot128x64_apply,
    bias64_apply, zero64_apply, Cert.Sage.emb0_ix]
  rfl

/-- The output of layer 1 as the reference computes it. -/
theorem ref_out1 (h agg e : FVec Ideal S100000x64 .f32) (wlT wrT weT : FVec Ideal S64x16 .f32) (bl be : FVec Ideal S16 .f32) :
    addf
        (addf
          (addf (Host.dotGeneral dot_S100000x64_S64x16_S100000x16_1_0_0_1_n_n none agg wlT)
            (broadcastInDim S100000x16 ![0, 1] bcast_S1x16_S100000x16_0_1 (broadcastInDim S1x16 ![1] bcast_S16_S1x16_1 bl)))
          (Host.dotGeneral dot_S100000x64_S64x16_S100000x16_1_0_0_1_n_n none h wrT))
        (addf (Host.dotGeneral dot_S100000x64_S64x16_S100000x16_1_0_0_1_n_n none e weT)
          (broadcastInDim S100000x16 ![0, 1] bcast_S1x16_S100000x16_0_1 (broadcastInDim S1x16 ![1] bcast_S16_S1x16_1 be)))
      = Cert.Sage.out1 h agg e wlT wrT weT bl be := by
  funext i
  obtain ⟨p, q, rfl⟩ : ∃ (p : Fin 100000) (q : Fin 16), i = ix2 p q :=
    ⟨⟨(i 0).val, idx2_lt0 i⟩, ⟨(i 1).val, idx2_lt1 i⟩, eq_ix2 i⟩
  rw [Cert.Sage.out1_ix, addf_apply, addf_apply, addf_apply, addf_apply, dot64x16_apply, dot64x16_apply, dot64x16_apply,
    bias16_apply, bias16_apply]
  rfl

end Cert.ReferenceIdeal.RefValue

end
-- ==== Proof.RefCompose.lean ====
/-
  The reference's result as one term of its arguments: its composed term is the second layer's formula over the first
  layer's outputs, with the neighbour mean, the embedding mean and the transposes as the named host functions
  (proof/Proof/RefHost.lean). The three dense stages are read by their index-wise lemmas; what remains is the same tree.
-/
import proofs.«142642_j87917980549692_1_alg».proof.Proof.Gen.ReferenceIdeal.Run
import proofs.«142642_j87917980549692_1_alg».proof.Proof.RefHost
import proofs.«142642_j87917980549692_1_alg».proof.Proof.RefValue

set_option maxRecDepth 16384

noncomputable section

namespace Cert.ReferenceIdeal.RCompose

open Cert.ReferenceIdeal Cert.ReferenceIdeal.Gen Cert.ReferenceIdeal.RHost
open Idealize.ShloMosaic Idealize.ShloMosaic.TcCoe Idealize.SL.Sem

/-- The run's result term is the whole network of the launch contents. -/
theorem res_eq (m : (ℓ : Loc nD τ sig) → Buf (Elt Ideal) ℓ) (c : Dev nD) :
    Cert.ReferenceIdeal.Value.res_main_v77 (F := Ideal) m c
      = resultOf (erawOf (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold Cert.ReferenceIdeal.Value.res_main_v77
  rw [Cert.ReferenceIdeal.RefValue.ref_emb0, Cert.ReferenceIdeal.RefValue.ref_hid0, Cert.ReferenceIdeal.RefValue.ref_out1]
  rfl

end Cert.ReferenceIdeal.RCompose

end
-- ==== Proof.Bridge.lean ====
/-
  The two programs' host-side functions are the same functions. The edge rows, the neighbour means and the transposes
  are spelt with the same operations on both sides; the embedding mean is spelt differently: the kernel's program adds the
  two slots and multiplies by one half, the reference sums them from zero and divides by two. On the extended reals
  dividing by two is multiplying by one half, and zero is neutral for addition.
-/
import proofs.«142642_j87917980549692_1_alg».proof.Proof.KernelHost
import proofs.«142642_j87917980549692_1_alg».proof.Proof.RefHost
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Bridge

open Idealize.ShloMosaic Idealize.ShloMosaic.ValueIdx

/-- The pattern of two denotes the real number two. -/
theorem ofBits_two : Ideal.ofBits .f32 0x40000000#32 = ((2 : ℝ) : EReal) := by
  simp [Ideal.ofBits, Ideal.ieee, -EReal.coe_mul]; norm_num

/-- The pattern of one half denotes the real number one half. -/
theorem ofBits_half : Ideal.ofBits .f32 0x3F000000#32 = ((1 / 2 : ℝ) : EReal) := by
  simp [Ideal.ofBits, Ideal.ieee, -EReal.coe_mul]; norm_num

section KernelSide
open Cert.KernelIdeal Cert.KernelIdeal.Gen

/-- Slot 0 of the embeddings, with its unit axis dropped, at node `p` and channel `q`. -/
theorem slot0_apply (x1 : FVec Ideal S100000x2x64 .f32) (p : Fin 100000) (q : Fin 64) :
    shapeCast S100000x64 (extractStridedSlice S100000x1x64 ![0, 0, 0] x1 slices_S100000x2x64_S100000x1x64_0_0_0)
        shapeCasts_S100000x1x64_S100000x64 (ix2 p q)
      = x1 (ix3 p (0 : Fin 2) q) := by
  generalize hy : extractStridedSlice S100000x1x64 ![0, 0, 0] x1 slices_S100000x2x64_S100000x1x64_0_0_0 = y
  have hc : shapeCast S100000x64 y shapeCasts_S100000x1x64_S100000x64 (ix2 p q) = y (ix3 p (0 : Fin 1) q) :=
    shapeCast_apply y shapeCasts_S100000x1x64_S100000x64 (ix2 p q) (ix3 p (0 : Fin 1) q)
      (by rewrite [Shape.rowMajor_val_three, Shape.rowMajor_val_two]
          show (p.val * 1 + 0) * 64 + q.val = p.val * 64 + q.val; omega)
  rw [hc, ← hy]
  exact extractStridedSlice_apply ![0, 0, 0] x1 slices_S100000x2x64_S100000x1x64_0_0_0 (ix3 p (0 : Fin 1) q)
    (ix3 p (0 : Fin 2) q) (fun a => match a with
      | ⟨0, _⟩ => by show p.val = 0 + p.val; omega
      | ⟨1, _⟩ => by show (0 : Nat) = 0 + 0; omega
      | ⟨2, _⟩ => by show q.val = 0 + q.val; omega)

/-- Slot 1 of the embeddings, with its unit axis dropped, at node `p` and channel `q`. -/
theorem slot1_apply (x1 : FVec Ideal S100000x2x64 .f32) (p : Fin 100000) (q : Fin 64) :
    shapeCast S100000x64 (extractStridedSlice S100000x1x64 ![0, 1, 0] x1 slices_S100000x2x64_S100000x1x64_0_1_0)
        shapeCasts_S100000x1x64_S100000x64 (ix2 p q)
      = x1 (ix3 p (1 : Fin 2) q) := by
  generalize hy : extractStridedSlice S100000x1x64 ![0, 1, 0] x1 slices_S100000x2x64_S100000x1x64_0_1_0 = y
  have hc : shapeCast S100000x64 y shapeCasts_S100000x1x64_S100000x64 (ix2 p q) = y (ix3 p (0 : Fin 1) q) :=
    shapeCast_apply y shapeCasts_S100000x1x64_S100000x64 (ix2 p q) (ix3 p (0 : Fin 1) q)
      (by rewrite [Shape.rowMajor_val_three, Shape.rowMajor_val_two]
          show (p.val * 1 + 0) * 64 + q.val = p.val * 64 + q.val; omega)
  rw [hc, ← hy]
  exact extractStridedSlice_apply ![0, 1, 0] x1 slices_S100000x2x64_S100000x1x64_0_1_0 (ix3 p (0 : Fin 1) q)
    (ix3 p (1 : Fin 2) q) (fun a => match a with
      | ⟨0, _⟩ => by show p.val = 0 + p.val; omega
      | ⟨1, _⟩ => by show (1 : Nat) = 1 + 0; omega
      | ⟨2, _⟩ => by show q.val = 0 + q.val; omega)

/-- The kernel program's embedding mean at node `p`, channel `q`: the two slots added, times one half. -/
theorem kernel_eraw_apply (x1 : FVec Ideal S100000x2x64 .f32) (p : Fin 100000) (q : Fin 64) :
    Cert.KernelIdeal.KHost.erawOf x1 (ix2 p q)
      = (x1 (ix3 p (0 : Fin 2) q) + x1 (ix3 p (1 : Fin 2) q)) * ((1 / 2 : ℝ) : EReal) := by
  unfold Cert.KernelIdeal.KHost.erawOf
  rw [mulf_apply, addf_apply, slot0_apply, slot1_apply]
  generalize hy : constant (F := Ideal) S_ .f32 0x3F000000#32 = y
  have hb : broadcastInDim S100000x64 ![] bcast_S_S100000x64 y (ix2 p q) = y ix0 :=
    broadcastInDim_apply _ bcast_S_S100000x64 y (ix2 p q) ix0 (fun a => a.elim0)
  rw [hb, ← hy, constant_apply, ofBits_half]

end KernelSide

section ReferenceSide
open Cert.ReferenceIdeal Cert.ReferenceIdeal.Gen

/-- The reference's sum of the two slots from zero, at node `p`, channel `q`. -/
theorem slotSum_apply (x1 : FVec Ideal S100000x2x64 .f32) (p : Fin 100000) (q : Fin 64) :
    Host.reduceAdd (F := Ideal) x1 (constant (F := Ideal) S_ .f32 0x00000000#32) reducesTo_S100000x2x64_S100000x64_d1 h_S_ (ix2 p q)
      = x1 (ix3 p (0 : Fin 2) q) + x1 (ix3 p (1 : Fin 2) q) := by
  simp only [Host.reduceAdd, Ideal.hostReduceAdd_def]
  rw [Ideal.hostReduceAdd_single reducesTo_S100000x2x64_S100000x64_d1 (by decide)]
  rw [constant_apply, Ideal.ofBits_zero_f32, zero_add]
  refine (Finset.sum_congr rfl fun k _ => ?_ : _ = ∑ k : Fin 2, x1 (ix3 p k q)).trans (Fin.sum_univ_two _)
  exact congrArg x1 (funext fun a => Fin.ext (by match a with | ⟨0, _⟩ => rfl | ⟨1, _⟩ => rfl | ⟨2, _⟩ => rfl))

/-- The reference's embedding mean at node `p`, channel `q`: the slots' sum divided by two. -/
theorem ref_eraw_apply (x1 : FVec Ideal S100000x2x64 .f32) (p : Fin 100000) (q : Fin 64) :
    Cert.ReferenceIdeal.RHost.erawOf x1 (ix2 p q)
      = (x1 (ix3 p (0 : Fin 2) q) + x1 (ix3 p (1 : Fin 2) q)) * ((1 / 2 : ℝ) : EReal) := by
  unfold Cert.ReferenceIdeal.RHost.erawOf
  show Ideal.div _ _ = _
  rw [slotSum_apply]
  generalize hy : constant (F := Ideal) S_ .f32 0x40000000#32 = y
  have hb : broadcastInDim S100000x64 ![] bcast_S_S100000x64 y (ix2 p q) = y ix0 :=
    broadcastInDim_apply _ bcast_S_S100000x64 y (ix2 p q) ix0 (fun a => a.elim0)
  rw [hb, ← hy, constant_apply, ofBits_two]
  exact Ideal.div_coe (by norm_num) _

end ReferenceSide

/-- The embedding mean: half the sum of the two slots is the slots' sum from zero divided by two. -/
theorem eraw_eq (x1 : Cert.KernelIdeal.KHost.CF Cert.KernelIdeal.S100000x2x64) :
    Cert.KernelIdeal.KHost.erawOf x1 = Cert.ReferenceIdeal.RHost.erawOf x1 := by
  funext i
  obtain ⟨p, q, rfl⟩ : ∃ (p : Fin 100000) (q : Fin 64), i = ix2 p q :=
    ⟨⟨(i 0).val, idx2_lt0 i⟩, ⟨(i 1).val, idx2_lt1 i⟩, eq_ix2 i⟩
  exact (kernel_eraw_apply x1 p q).trans (ref_eraw_apply x1 p q).symm

end Cert.Bridge

end
-- ==== Proof.SameHost.lean ====
/-
  The two programs spell the network's host side with the same operations on the same shapes: over a common embedding
  mean the kernel program's whole-network term and the reference's are one term.
-/
import proofs.«142642_j87917980549692_1_alg».proof.Proof.KernelHost
import proofs.«142642_j87917980549692_1_alg».proof.Proof.RefHost

set_option maxRecDepth 16384

noncomputable section

namespace Cert.Bridge

open Idealize.ShloMosaic
open Cert.KernelIdeal

/-- Over the same embedding mean and the same arguments the two programs' networks are the same function. -/
theorem resultOf_eq (er : KHost.CF S100000x64) (x0 : KHost.CF S100000x128) (e : KHost.CI S2x1600000) (x3 : KHost.CF S64x128)
    (x4 : KHost.CF S64) (x5 : KHost.CF S64x128) (x6 : KHost.CF S64x64) (x7 : KHost.CF S64) (x8 : KHost.CF S16x64) (x9 : KHost.CF S16)
    (x10 x11 : KHost.CF S16x64) (x12 : KHost.CF S16) :
    KHost.resultOf er x0 e x3 x4 x5 x6 x7 x8 x9 x10 x11 x12
      = Cert.ReferenceIdeal.RHost.resultOf er x0 e x3 x4 x5 x6 x7 x8 x9 x10 x11 x12 := rfl

end Cert.Bridge

end
-- ==== Proof.lean ====
/-
  The certificate of the two-layer neighbour-mean network: the kernel program (two gridded dense kernels, one per layer,
  around host-side gathers and scatter-adds) against its array-level reference.

  Over the extended reals both programs compute, for node i and output channel j,
    out[i, j] = (((Σ_k agg1[i, k] · Wl1[j, k]) + bl1[j]) + Σ_k h[i, k] · Wr1[j, k]) + ((Σ_k e0[i, k] · We1[j, k]) + be1[j]),
  where h = max ((((agg0 · Wl0ᵀ) + bl0) + x · Wr0ᵀ) + e0) 0, e0 = eraw · We0ᵀ + be0, agg0 and agg1 are the neighbour means
  of x and of h (the same gather, scatter-add and clipped in-degree on both sides, never opened), and eraw is the mean of
  the two embedding slots. The kernels compute each row block of 2000 nodes with the matrix unit; a row block's entries
  are the same sums over the contracted axis as the reference's whole-array products, and the blocks tile the arrays.
  The one place the two programs differ is the embedding mean: half the sum of the two slots against their sum from
  zero divided by two, equal on every extended real. The frames are the generated ones; the kernel program's run is read
  once more with its result buffer beside the arguments.
-/
import proofs.«142642_j87917980549692_1_alg».proof.Defs
import proofs.«142642_j87917980549692_1_alg».proof.Proof.Gen.Kernel
import proofs.«142642_j87917980549692_1_alg».proof.Proof.Gen.Kernel.Frame
import proofs.«142642_j87917980549692_1_alg».proof.Proof.Gen.KernelIdeal
import proofs.«142642_j87917980549692_1_alg».proof.Proof.Gen.KernelIdeal.Frame
import proofs.«142642_j87917980549692_1_alg».proof.Proof.Gen.ReferenceIdeal
import proofs.«142642_j87917980549692_1_alg».proof.Proof.Gen.ReferenceIdeal.Run
import proofs.«142642_j87917980549692_1_alg».proof.Proof.Gen.Pre_finite_inputs
import proofs.«142642_j87917980549692_1_alg».proof.Proof.KernelRun
import proofs.«142642_j87917980549692_1_alg».proof.Proof.KernelValue
import proofs.«142642_j87917980549692_1_alg».proof.Proof.RefCompose
import proofs.«142642_j87917980549692_1_alg».proof.Proof.Bridge
import proofs.«142642_j87917980549692_1_alg».proof.Proof.SameHost
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the whole network of the (agreeing) arguments in their result buffers. -/
theorem algebraic : Cert.algebraic_KernelIdeal_ReferenceIdeal := by
  intro m ρ m' ρ' _ hagree
  refine ⟨fun c => Cert.KernelIdeal.KHost.resultOf (Cert.KernelIdeal.KHost.erawOf (m ((c.tc : Thread Cert.KernelIdeal.nD Cert.KernelIdeal.τ).loc Cert.KernelIdeal.main_arg1)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.KValue.result_eq m ρ c), (h c).2⟩)
      (Cert.KernelIdeal.Gen.run_result m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12⟩ := hagree c
    rw [Cert.ReferenceIdeal.RCompose.res_eq, a0, a1, a2, a3, a4, a5, a6, a7, a8, a9, a10, a11, a12, ← Cert.Bridge.eraw_eq]
    exact (Cert.Bridge.resultOf_eq _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
